-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x16 : Shape := ⟨3, ![4, 64, 16]⟩
abbrev S4x64x49x512 : Shape := ⟨4, ![4, 64, 49, 512]⟩
abbrev S_ : Shape := ⟨0, ![]⟩

class Facts : Prop where
  bcast_S_S4x64x49x512 : S_.BroadcastsInDim S4x64x49x512 (![] : Fin 0 → Fin S4x64x49x512.rank)
  reducesTo_S4x64x49x512_S_d0_1_2_3 : S4x64x49x512.ReducesTo [0, 1, 2, 3] S_
  h_S_ : 0 < S_.numel
  bcast_S_S4x64x16 : S_.BroadcastsInDim S4x64x16 (![] : Fin 0 → Fin S4x64x16.rank)
  reducesTo_S4x64x16_S_d0_1_2 : S4x64x16.ReducesTo [0, 1, 2] S_

variable [Facts]

def fn {F : FTy → Type} [FloatOps F] (main_arg0 : IVec S4x64x16 32) (main_arg1 : FVec F S4x64x49x512 .f32) : IVec S_ 1 :=
  let main_v0 : FVec F S4x64x49x512 .f32 := Host.absf main_arg1
  let main_cst : FVec F S_ .f32 := constant S_ .f32 0x7F800000#32
  let main_v1 : FVec F S4x64x49x512 .f32 := broadcastInDim S4x64x49x512 ![] bcast_S_S4x64x49x512 main_cst
  let main_v2 : IVec S4x64x49x512 1 := cmpf .olt main_v0 main_v1
  let main_c : IVec S_ 1 := constantI S_ 1 1#1
  let main_v3 : IVec S_ 1 := (fun x v => Host.reduce IntOp.andi x v reducesTo_S4x64x49x512_S_d0_1_2_3 h_S_) main_v2 main_c
  let main_c_0 : IVec S_ 32 := constantI S_ 32 0#32
  let main_v4 : IVec S4x64x16 32 := broadcastInDim S4x64x16 ![] bcast_S_S4x64x16 main_c_0
  let main_v5 : IVec S4x64x16 1 := cmpi .sge main_arg0 main_v4
  let main_c_1 : IVec S_ 32 := constantI S_ 32 64#32
  let main_v6 : IVec S4x64x16 32 := broadcastInDim S4x64x16 ![] bcast_S_S4x64x16 main_c_1
  let main_v7 : IVec S4x64x16 1 := cmpi .slt main_arg0 main_v6
  let main_v8 : IVec S4x64x16 1 := andi main_v5 main_v7
  let main_c_2 : IVec S_ 1 := constantI S_ 1 1#1
  let main_v9 : IVec S_ 1 := (fun x v => Host.reduce IntOp.andi x v reducesTo_S4x64x16_S_d0_1_2 h_S_) main_v8 main_c_2
  let main_v10 : IVec S_ 1 := andi main_v3 main_v9
  main_v10
-- ==== Kernel.lean ====
abbrev S4x64x16 : Shape := ⟨3, ![4, 64, 16]⟩
abbrev S4x64x49x512 : Shape := ⟨4, ![4, 64, 49, 512]⟩
abbrev S4x64x16x49x512 : Shape := ⟨5, ![4, 64, 16, 49, 512]⟩
abbrev S1x64x49x512 : Shape := ⟨4, ![1, 64, 49, 512]⟩
abbrev S1x1x16x49x512 : Shape := ⟨5, ![1, 1, 16, 49, 512]⟩
abbrev S1x1x1 : Shape := ⟨3, ![1, 1, 1]⟩
abbrev S1x1x49x512 : Shape := ⟨4, ![1, 1, 49, 512]⟩
abbrev S49x512 : Shape := ⟨2, ![49, 512]⟩
abbrev S1x1x1x49x512 : Shape := ⟨5, ![1, 1, 1, 49, 512]⟩

abbrev nBuf : Space → Nat
  | .hbm => 2
  | .vmem => 4
  | .smem => 1
  | _ => 0

abbrev bufTy : (tb : Table) → Fin (tcTables nBuf tb) → BufTy
  | .hbm, ⟨0, _⟩ => ⟨S4x64x49x512, .f32⟩
  | .hbm, ⟨1, _⟩ => ⟨S4x64x16x49x512, .f32⟩
  | .local _ .vmem, ⟨0, _⟩ => ⟨S1x64x49x512, .f32⟩
  | .local _ .vmem, ⟨1, _⟩ => ⟨S1x64x49x512, .f32⟩
  | .local _ .vmem, ⟨2, _⟩ => ⟨S1x1x16x49x512, .f32⟩
  | .local _ .vmem, ⟨3, _⟩ => ⟨S1x1x16x49x512, .f32⟩
  | .local _ .smem, ⟨0, _⟩ => ⟨S4x64x16, .i32⟩
  | _, _ => ⟨S4x64x49x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg1 : Ref sig .tc := ⟨.hbm, 0, rfl⟩
abbrev main_v0 : Ref sig .tc := ⟨.hbm, 1, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 64], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 3 → Nat :=
  let arg0 : BitVec 32 := BitVec.ofNat 32 (i 0).val
  let v0 : Index := Scalar.indexCast arg0
  let arg1 : BitVec 32 := BitVec.ofNat 32 (i 1).val
  let v1 : Index := Scalar.indexCast arg1
  let c0_i32 : BitVec 32 := 0#32
  let v2 : Index := Scalar.indexCast c0_i32
  ![v0.toNat, v1.toNat, 0]
def k0_off2 (v3 : BitVec 32) : Fin 4 → Nat :=
  let c0 : Index := 0#32
  let v4 : Index := Scalar.indexCast v3
  let c0_0 : Index := 0#32
  let c0_1 : Index := 0#32
  ![0, v4.toNat, 0, 0]

def k0_chk1 (v3 : BitVec 32) : Prop :=
  (∀ a, (k0_off2 v3) a + S1x1x49x512.size a ≤ S1x64x49x512.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x1x49x512.size a ≤ S1x64x49x512.size a := fun v3 k0_hw1 => k0_hw1

def k0_off3 (i : grid0.Coords) : Fin 3 → Nat :=
  let arg0 : BitVec 32 := BitVec.ofNat 32 (i 0).val
  let v11 : Index := Scalar.indexCast arg0
  let arg1 : BitVec 32 := BitVec.ofNat 32 (i 1).val
  let v12 : Index := Scalar.indexCast arg1
  let c1_i32 : BitVec 32 := 1#32
  let v13 : Index := Scalar.indexCast c1_i32
  ![v11.toNat, v12.toNat, 1]
def k0_off4 (v14 : BitVec 32) : Fin 4 → Nat :=
  let c0_6 : Index := 0#32
  let v15 : Index := Scalar.indexCast v14
  let c0_7 : Index := 0#32
  let c0_8 : Index := 0#32
  ![0, v15.toNat, 0, 0]

def k0_chk2 (v14 : BitVec 32) : Prop :=
  (∀ a, (k0_off4 v14) a + S1x1x49x512.size a ≤ S1x64x49x512.size a)
instance k0_chk2.dec : ∀ (v14 : BitVec 32), Decidable (k0_chk2 v14) := fun v14 => decidable_of_iff' _ (Iff.of_eq (k0_chk2.eq_1 v14))
theorem k0_off4_inb : ∀ (v14 : BitVec 32) (k0_hw2 : k0_chk2 v14), ∀ a, (k0_off4 v14) a + S1x1x49x512.size a ≤ S1x64x49x512.size a := fun v14 k0_hw2 => k0_hw2

def k0_off5 (i : grid0.Coords) : Fin 3 → Nat :=
  let arg0 : BitVec 32 := BitVec.ofNat 32 (i 0).val
  let v22 : Index := Scalar.indexCast arg0
  let arg1 : BitVec 32 := BitVec.ofNat 32 (i 1).val
  let v23 : Index := Scalar.indexCast arg1
  let c2_i32 : BitVec 32 := 2#32
  let v24 : Index := Scalar.indexCast c2_i32
  ![v22.toNat, v23.toNat, 2]
def k0_off6 (v25 : BitVec 32) : Fin 4 → Nat :=
  let c0_13 : Index := 0#32
  let v26 : Index := Scalar.indexCast v25
  let c0_14 : Index := 0#32
  let c0_15 : Index := 0#32
  ![0, v26.toNat, 0, 0]

def k0_chk3 (v25 : BitVec 32) : Prop :=
  (∀ a, (k0_off6 v25) a + S1x1x49x512.size a ≤ S1x64x49x512.size a)
instance k0_chk3.dec : ∀ (v25 : BitVec 32), Decidable (k0_chk3 v25) := fun v25 => decidable_of_iff' _ (Iff.of_eq (k0_chk3.eq_1 v25))
theorem k0_off6_inb : ∀ (v25 : BitVec 32) (k0_hw3 : k0_chk3 v25), ∀ a, (k0_off6 v25) a + S1x1x49x512.size a ≤ S1x64x49x512.size a := fun v25 k0_hw3 => k0_hw3

def k0_off7 (i : grid0.Coords) : Fin 3 → Nat :=
  let arg0 : BitVec 32 := BitVec.ofNat 32 (i 0).val
  let v33 : Index := Scalar.indexCast arg0
  let arg1 : BitVec 32 := BitVec.ofNat 32 (i 1).val
  let v34 : Index := Scalar.indexCast arg1
  let c3_i32 : BitVec 32 := 3#32
  let v35 : Index := Scalar.indexCast c3_i32
  ![v33.toNat, v34.toNat, 3]
def k0_off8 (v36 : BitVec 32) : Fin 4 → Nat :=
  let c0_20 : Index := 0#32
  let v37 : Index := Scalar.indexCast v36
  let c0_21 : Index := 0#32
  let c0_22 : Index := 0#32
  ![0, v37.toNat, 0, 0]

def k0_chk4 (v36 : BitVec 32) : Prop :=
  (∀ a, (k0_off8 v36) a + S1x1x49x512.size a ≤ S1x64x49x512.size a)
instance k0_chk4.dec : ∀ (v36 : BitVec 32), Decidable (k0_chk4 v36) := fun v36 => decidable_of_iff' _ (Iff.of_eq (k0_chk4.eq_1 v36))
theorem k0_off8_inb : ∀ (v36 : BitVec 32) (k0_hw4 : k0_chk4 v36), ∀ a, (k0_off8 v36) a + S1x1x49x512.size a ≤ S1x64x49x512.size a := fun v36 k0_hw4 => k0_hw4

def k0_off9 (i : grid0.Coords) : Fin 3 → Nat :=
  let arg0 : BitVec 32 := BitVec.ofNat 32 (i 0).val
  let v44 : Index := Scalar.indexCast arg0
  let arg1 : BitVec 32 := BitVec.ofNat 32 (i 1).val
  let v45 : Index := Scalar.indexCast arg1
  let c4_i32 : BitVec 32 := 4#32
  let v46 : Index := Scalar.indexCast c4_i32
  ![v44.toNat, v45.toNat, 4]
def k0_off10 (v47 : BitVec 32) : Fin 4 → Nat :=
  let c0_27 : Index := 0#32
  let v48 : Index := Scalar.indexCast v47
  let c0_28 : Index := 0#32
  let c0_29 : Index := 0#32
  ![0, v48.toNat, 0, 0]

def k0_chk5 (v47 : BitVec 32) : Prop :=
  (∀ a, (k0_off10 v47) a + S1x1x49x512.size a ≤ S1x64x49x512.size a)
instance k0_chk5.dec : ∀ (v47 : BitVec 32), Decidable (k0_chk5 v47) := fun v47 => decidable_of_iff' _ (Iff.of_eq (k0_chk5.eq_1 v47))
theorem k0_off10_inb : ∀ (v47 : BitVec 32) (k0_hw5 : k0_chk5 v47), ∀ a, (k0_off10 v47) a + S1x1x49x512.size a ≤ S1x64x49x512.size a := fun v47 k0_hw5 => k0_hw5

def k0_off11 (i : grid0.Coords) : Fin 3 → Nat :=
  let arg0 : BitVec 32 := BitVec.ofNat 32 (i 0).val
  let v55 : Index := Scalar.indexCast arg0
  let arg1 : BitVec 32 := BitVec.ofNat 32 (i 1).val
  let v56 : Index := Scalar.indexCast arg1
  let c5_i32 : BitVec 32 := 5#32
  let v57 : Index := Scalar.indexCast c5_i32
  ![v55.toNat, v56.toNat, 5]
def k0_off12 (v58 : BitVec 32) : Fin 4 → Nat :=
  let c0_34 : Index := 0#32
  let v59 : Index := Scalar.indexCast v58
  let c0_35 : Index := 0#32
  let c0_36 : Index := 0#32
  ![0, v59.toNat, 0, 0]

def k0_chk6 (v58 : BitVec 32) : Prop :=
  (∀ a, (k0_off12 v58) a + S1x1x49x512.size a ≤ S1x64x49x512.size a)
instance k0_chk6.dec : ∀ (v58 : BitVec 32), Decidable (k0_chk6 v58) := fun v58 => decidable_of_iff' _ (Iff.of_eq (k0_chk6.eq_1 v58))
theorem k0_off12_inb : ∀ (v58 : BitVec 32) (k0_hw6 : k0_chk6 v58), ∀ a, (k0_off12 v58) a + S1x1x49x512.size a ≤ S1x64x49x512.size a := fun v58 k0_hw6 => k0_hw6

def k0_off13 (i : grid0.Coords) : Fin 3 → Nat :=
  let arg0 : BitVec 32 := BitVec.ofNat 32 (i 0).val
  let v66 : Index := Scalar.indexCast arg0
  let arg1 : BitVec 32 := BitVec.ofNat 32 (i 1).val
  let v67 : Index := Scalar.indexCast arg1
  let c6_i32 : BitVec 32 := 6#32
  let v68 : Index := Scalar.indexCast c6_i32
  ![v66.toNat, v67.toNat, 6]
def k0_off14 (v69 : BitVec 32) : Fin 4 → Nat :=
  let c0_41 : Index := 0#32
  let v70 : Index := Scalar.indexCast v69
  let c0_42 : Index := 0#32
  let c0_43 : Index := 0#32
  ![0, v70.toNat, 0, 0]

def k0_chk7 (v69 : BitVec 32) : Prop :=
  (∀ a, (k0_off14 v69) a + S1x1x49x512.size a ≤ S1x64x49x512.size a)
instance k0_chk7.dec : ∀ (v69 : BitVec 32), Decidable (k0_chk7 v69) := fun v69 => decidable_of_iff' _ (Iff.of_eq (k0_chk7.eq_1 v69))
theorem k0_off14_inb : ∀ (v69 : BitVec 32) (k0_hw7 : k0_chk7 v69), ∀ a, (k0_off14 v69) a + S1x1x49x512.size a ≤ S1x64x49x512.size a := fun v69 k0_hw7 => k0_hw7

def k0_off15 (i : grid0.Coords) : Fin 3 → Nat :=
  let arg0 : BitVec 32 := BitVec.ofNat 32 (i 0).val
  let v77 : Index := Scalar.indexCast arg0
  let arg1 : BitVec 32 := BitVec.ofNat 32 (i 1).val
  let v78 : Index := Scalar.indexCast arg1
  let c7_i32 : BitVec 32 := 7#32
  let v79 : Index := Scalar.indexCast c7_i32
  ![v77.toNat, v78.toNat, 7]
def k0_off16 (v80 : BitVec 32) : Fin 4 → Nat :=
  let c0_48 : Index := 0#32
  let v81 : Index := Scalar.indexCast v80
  let c0_49 : Index := 0#32
  let c0_50 : Index := 0#32
  ![0, v81.toNat, 0, 0]

def k0_chk8 (v80 : BitVec 32) : Prop :=
  (∀ a, (k0_off16 v80) a + S1x1x49x512.size a ≤ S1x64x49x512.size a)
instance k0_chk8.dec : ∀ (v80 : BitVec 32), Decidable (k0_chk8 v80) := fun v80 => decidable_of_iff' _ (Iff.of_eq (k0_chk8.eq_1 v80))
theorem k0_off16_inb : ∀ (v80 : BitVec 32) (k0_hw8 : k0_chk8 v80), ∀ a, (k0_off16 v80) a + S1x1x49x512.size a ≤ S1x64x49x512.size a := fun v80 k0_hw8 => k0_hw8

def k0_off17 (i : grid0.Coords) : Fin 3 → Nat :=
  let arg0 : BitVec 32 := BitVec.ofNat 32 (i 0).val
  let v88 : Index := Scalar.indexCast arg0
  let arg1 : BitVec 32 := BitVec.ofNat 32 (i 1).val
  let v89 : Index := Scalar.indexCast arg1
  let c8_i32 : BitVec 32 := 8#32
  let v90 : Index := Scalar.indexCast c8_i32
  ![v88.toNat, v89.toNat, 8]
def k0_off18 (v91 : BitVec 32) : Fin 4 → Nat :=
  let c0_55 : Index := 0#32
  let v92 : Index := Scalar.indexCast v91
  let c0_56 : Index := 0#32
  let c0_57 : Index := 0#32
  ![0, v92.toNat, 0, 0]

def k0_chk9 (v91 : BitVec 32) : Prop :=
  (∀ a, (k0_off18 v91) a + S1x1x49x512.size a ≤ S1x64x49x512.size a)
instance k0_chk9.dec : ∀ (v91 : BitVec 32), Decidable (k0_chk9 v91) := fun v91 => decidable_of_iff' _ (Iff.of_eq (k0_chk9.eq_1 v91))
theorem k0_off18_inb : ∀ (v91 : BitVec 32) (k0_hw9 : k0_chk9 v91), ∀ a, (k0_off18 v91) a + S1x1x49x512.size a ≤ S1x64x49x512.size a := fun v91 k0_hw9 => k0_hw9

def k0_off19 (i : grid0.Coords) : Fin 3 → Nat :=
  let arg0 : BitVec 32 := BitVec.ofNat 32 (i 0).val
  let v99 : Index := Scalar.indexCast arg0
  let arg1 : BitVec 32 := BitVec.ofNat 32 (i 1).val
  let v100 : Index := Scalar.indexCast arg1
  let c9_i32 : BitVec 32 := 9#32
  let v101 : Index := Scalar.indexCast c9_i32
  ![v99.toNat, v100.toNat, 9]
def k0_off20 (v102 : BitVec 32) : Fin 4 → Nat :=
  let c0_62 : Index := 0#32
  let v103 : Index := Scalar.indexCast v102
  let c0_63 : Index := 0#32
  let c0_64 : Index := 0#32
  ![0, v103.toNat, 0, 0]

def k0_chk10 (v102 : BitVec 32) : Prop :=
  (∀ a, (k0_off20 v102) a + S1x1x49x512.size a ≤ S1x64x49x512.size a)
instance k0_chk10.dec : ∀ (v102 : BitVec 32), Decidable (k0_chk10 v102) := fun v102 => decidable_of_iff' _ (Iff.of_eq (k0_chk10.eq_1 v102))
theorem k0_off20_inb : ∀ (v102 : BitVec 32) (k0_hw10 : k0_chk10 v102), ∀ a, (k0_off20 v102) a + S1x1x49x512.size a ≤ S1x64x49x512.size a := fun v102 k0_hw10 => k0_hw10

def k0_off21 (i : grid0.Coords) : Fin 3 → Nat :=
  let arg0 : BitVec 32 := BitVec.ofNat 32 (i 0).val
  let v110 : Index := Scalar.indexCast arg0
  let arg1 : BitVec 32 := BitVec.ofNat 32 (i 1).val
  let v111 : Index := Scalar.indexCast arg1
  let c10_i32 : BitVec 32 := 10#32
  let v112 : Index := Scalar.indexCast c10_i32
  ![v110.toNat, v111.toNat, 10]
def k0_off22 (v113 : BitVec 32) : Fin 4 → Nat :=
  let c0_69 : Index := 0#32
  let v114 : Index := Scalar.indexCast v113
  let c0_70 : Index := 0#32
  let c0_71 : Index := 0#32
  ![0, v114.toNat, 0, 0]

def k0_chk11 (v113 : BitVec 32) : Prop :=
  (∀ a, (k0_off22 v113) a + S1x1x49x512.size a ≤ S1x64x49x512.size a)
instance k0_chk11.dec : ∀ (v113 : BitVec 32), Decidable (k0_chk11 v113) := fun v113 => decidable_of_iff' _ (Iff.of_eq (k0_chk11.eq_1 v113))
theorem k0_off22_inb : ∀ (v113 : BitVec 32) (k0_hw11 : k0_chk11 v113), ∀ a, (k0_off22 v113) a + S1x1x49x512.size a ≤ S1x64x49x512.size a := fun v113 k0_hw11 => k0_hw11

def k0_off23 (i : grid0.Coords) : Fin 3 → Nat :=
  let arg0 : BitVec 32 := BitVec.ofNat 32 (i 0).val
  let v121 : Index := Scalar.indexCast arg0
  let arg1 : BitVec 32 := BitVec.ofNat 32 (i 1).val
  let v122 : Index := Scalar.indexCast arg1
  let c11_i32 : BitVec 32 := 11#32
  let v123 : Index := Scalar.indexCast c11_i32
  ![v121.toNat, v122.toNat, 11]
def k0_off24 (v124 : BitVec 32) : Fin 4 → Nat :=
  let c0_76 : Index := 0#32
  let v125 : Index := Scalar.indexCast v124
  let c0_77 : Index := 0#32
  let c0_78 : Index := 0#32
  ![0, v125.toNat, 0, 0]

def k0_chk12 (v124 : BitVec 32) : Prop :=
  (∀ a, (k0_off24 v124) a + S1x1x49x512.size a ≤ S1x64x49x512.size a)
instance k0_chk12.dec : ∀ (v124 : BitVec 32), Decidable (k0_chk12 v124) := fun v124 => decidable_of_iff' _ (Iff.of_eq (k0_chk12.eq_1 v124))
theorem k0_off24_inb : ∀ (v124 : BitVec 32) (k0_hw12 : k0_chk12 v124), ∀ a, (k0_off24 v124) a + S1x1x49x512.size a ≤ S1x64x49x512.size a := fun v124 k0_hw12 => k0_hw12

def k0_off25 (i : grid0.Coords) : Fin 3 → Nat :=
  let arg0 : BitVec 32 := BitVec.ofNat 32 (i 0).val
  let v132 : Index := Scalar.indexCast arg0
  let arg1 : BitVec 32 := BitVec.ofNat 32 (i 1).val
  let v133 : Index := Scalar.indexCast arg1
  let c12_i32 : BitVec 32 := 12#32
  let v134 : Index := Scalar.indexCast c12_i32
  ![v132.toNat, v133.toNat, 12]
def k0_off26 (v135 : BitVec 32) : Fin 4 → Nat :=
  let c0_83 : Index := 0#32
  let v136 : Index := Scalar.indexCast v135
  let c0_84 : Index := 0#32
  let c0_85 : Index := 0#32
  ![0, v136.toNat, 0, 0]

def k0_chk13 (v135 : BitVec 32) : Prop :=
  (∀ a, (k0_off26 v135) a + S1x1x49x512.size a ≤ S1x64x49x512.size a)
instance k0_chk13.dec : ∀ (v135 : BitVec 32), Decidable (k0_chk13 v135) := fun v135 => decidable_of_iff' _ (Iff.of_eq (k0_chk13.eq_1 v135))
theorem k0_off26_inb : ∀ (v135 : BitVec 32) (k0_hw13 : k0_chk13 v135), ∀ a, (k0_off26 v135) a + S1x1x49x512.size a ≤ S1x64x49x512.size a := fun v135 k0_hw13 => k0_hw13

def k0_off27 (i : grid0.Coords) : Fin 3 → Nat :=
  let arg0 : BitVec 32 := BitVec.ofNat 32 (i 0).val
  let v143 : Index := Scalar.indexCast arg0
  let arg1 : BitVec 32 := BitVec.ofNat 32 (i 1).val
  let v144 : Index := Scalar.indexCast arg1
  let c13_i32 : BitVec 32 := 13#32
  let v145 : Index := Scalar.indexCast c13_i32
  ![v143.toNat, v144.toNat, 13]
def k0_off28 (v146 : BitVec 32) : Fin 4 → Nat :=
  let c0_90 : Index := 0#32
  let v147 : Index := Scalar.indexCast v146
  let c0_91 : Index := 0#32
  let c0_92 : Index := 0#32
  ![0, v147.toNat, 0, 0]

def k0_chk14 (v146 : BitVec 32) : Prop :=
  (∀ a, (k0_off28 v146) a + S1x1x49x512.size a ≤ S1x64x49x512.size a)
instance k0_chk14.dec : ∀ (v146 : BitVec 32), Decidable (k0_chk14 v146) := fun v146 => decidable_of_iff' _ (Iff.of_eq (k0_chk14.eq_1 v146))
theorem k0_off28_inb : ∀ (v146 : BitVec 32) (k0_hw14 : k0_chk14 v146), ∀ a, (k0_off28 v146) a + S1x1x49x512.size a ≤ S1x64x49x512.size a := fun v146 k0_hw14 => k0_hw14

def k0_off29 (i : grid0.Coords) : Fin 3 → Nat :=
  let arg0 : BitVec 32 := BitVec.ofNat 32 (i 0).val
  let v154 : Index := Scalar.indexCast arg0
  let arg1 : BitVec 32 := BitVec.ofNat 32 (i 1).val
  let v155 : Index := Scalar.indexCast arg1
  let c14_i32 : BitVec 32 := 14#32
  let v156 : Index := Scalar.indexCast c14_i32
  ![v154.toNat, v155.toNat, 14]
def k0_off30 (v157 : BitVec 32) : Fin 4 → Nat :=
  let c0_97 : Index := 0#32
  let v158 : Index := Scalar.indexCast v157
  let c0_98 : Index := 0#32
  let c0_99 : Index := 0#32
  ![0, v158.toNat, 0, 0]

def k0_chk15 (v157 : BitVec 32) : Prop :=
  (∀ a, (k0_off30 v157) a + S1x1x49x512.size a ≤ S1x64x49x512.size a)
instance k0_chk15.dec : ∀ (v157 : BitVec 32), Decidable (k0_chk15 v157) := fun v157 => decidable_of_iff' _ (Iff.of_eq (k0_chk15.eq_1 v157))
theorem k0_off30_inb : ∀ (v157 : BitVec 32) (k0_hw15 : k0_chk15 v157), ∀ a, (k0_off30 v157) a + S1x1x49x512.size a ≤ S1x64x49x512.size a := fun v157 k0_hw15 => k0_hw15

def k0_off31 (i : grid0.Coords) : Fin 3 → Nat :=
  let arg0 : BitVec 32 := BitVec.ofNat 32 (i 0).val
  let v165 : Index := Scalar.indexCast arg0
  let arg1 : BitVec 32 := BitVec.ofNat 32 (i 1).val
  let v166 : Index := Scalar.indexCast arg1
  let c15_i32 : BitVec 32 := 15#32
  let v167 : Index := Scalar.indexCast c15_i32
  ![v165.toNat, v166.toNat, 15]
def k0_off32 (v168 : BitVec 32) : Fin 4 → Nat :=
  let c0_104 : Index := 0#32
  let v169 : Index := Scalar.indexCast v168
  let c0_105 : Index := 0#32
  let c0_106 : Index := 0#32
  ![0, v169.toNat, 0, 0]

def k0_chk16 (v168 : BitVec 32) : Prop :=
  (∀ a, (k0_off32 v168) a + S1x1x49x512.size a ≤ S1x64x49x512.size a)
instance k0_chk16.dec : ∀ (v168 : BitVec 32), Decidable (k0_chk16 v168) := fun v168 => decidable_of_iff' _ (Iff.of_eq (k0_chk16.eq_1 v168))
theorem k0_off32_inb : ∀ (v168 : BitVec 32) (k0_hw16 : k0_chk16 v168), ∀ a, (k0_off32 v168) a + S1x1x49x512.size a ≤ S1x64x49x512.size a := fun v168 k0_hw16 => k0_hw16

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x64x49x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x16x49x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  numel1_S1x1x1 : S1x1x1.numel = 1
  h_S1x1x49x512 : 0 < S1x1x49x512.numel
  shapeCasts_S1x1x49x512_S49x512 : S1x1x49x512.ShapeCasts S49x512
  inb_S1x1x16x49x512_S1x1x1x49x512_0_0_0_0_0 : ∀ a, (![0, 0, 0, 0, 0] : Fin 5 → Nat) a + S1x1x1x49x512.size a ≤ S1x1x16x49x512.size a
  h_S1x1x1x49x512 : 0 < S1x1x1x49x512.numel
  shapeCasts_S1x1x1x49x512_S49x512 : S1x1x1x49x512.ShapeCasts S49x512
  shapeCasts_S49x512_S1x1x1x49x512 : S49x512.ShapeCasts S1x1x1x49x512
  inb_S1x1x16x49x512_S1x1x1x49x512_0_0_1_0_0 : ∀ a, (![0, 0, 1, 0, 0] : Fin 5 → Nat) a + S1x1x1x49x512.size a ≤ S1x1x16x49x512.size a
  inb_S1x1x16x49x512_S1x1x1x49x512_0_0_2_0_0 : ∀ a, (![0, 0, 2, 0, 0] : Fin 5 → Nat) a + S1x1x1x49x512.size a ≤ S1x1x16x49x512.size a
  inb_S1x1x16x49x512_S1x1x1x49x512_0_0_3_0_0 : ∀ a, (![0, 0, 3, 0, 0] : Fin 5 → Nat) a + S1x1x1x49x512.size a ≤ S1x1x16x49x512.size a
  inb_S1x1x16x49x512_S1x1x1x49x512_0_0_4_0_0 : ∀ a, (![0, 0, 4, 0, 0] : Fin 5 → Nat) a + S1x1x1x49x512.size a ≤ S1x1x16x49x512.size a
  inb_S1x1x16x49x512_S1x1x1x49x512_0_0_5_0_0 : ∀ a, (![0, 0, 5, 0, 0] : Fin 5 → Nat) a + S1x1x1x49x512.size a ≤ S1x1x16x49x512.size a
  inb_S1x1x16x49x512_S1x1x1x49x512_0_0_6_0_0 : ∀ a, (![0, 0, 6, 0, 0] : Fin 5 → Nat) a + S1x1x1x49x512.size a ≤ S1x1x16x49x512.size a
  inb_S1x1x16x49x512_S1x1x1x49x512_0_0_7_0_0 : ∀ a, (![0, 0, 7, 0, 0] : Fin 5 → Nat) a + S1x1x1x49x512.size a ≤ S1x1x16x49x512.size a
  inb_S1x1x16x49x512_S1x1x1x49x512_0_0_8_0_0 : ∀ a, (![0, 0, 8, 0, 0] : Fin 5 → Nat) a + S1x1x1x49x512.size a ≤ S1x1x16x49x512.size a
  inb_S1x1x16x49x512_S1x1x1x49x512_0_0_9_0_0 : ∀ a, (![0, 0, 9, 0, 0] : Fin 5 → Nat) a + S1x1x1x49x512.size a ≤ S1x1x16x49x512.size a
  inb_S1x1x16x49x512_S1x1x1x49x512_0_0_10_0_0 : ∀ a, (![0, 0, 10, 0, 0] : Fin 5 → Nat) a + S1x1x1x49x512.size a ≤ S1x1x16x49x512.size a
  inb_S1x1x16x49x512_S1x1x1x49x512_0_0_11_0_0 : ∀ a, (![0, 0, 11, 0, 0] : Fin 5 → Nat) a + S1x1x1x49x512.size a ≤ S1x1x16x49x512.size a
  inb_S1x1x16x49x512_S1x1x1x49x512_0_0_12_0_0 : ∀ a, (![0, 0, 12, 0, 0] : Fin 5 → Nat) a + S1x1x1x49x512.size a ≤ S1x1x16x49x512.size a
  inb_S1x1x16x49x512_S1x1x1x49x512_0_0_13_0_0 : ∀ a, (![0, 0, 13, 0, 0] : Fin 5 → Nat) a + S1x1x1x49x512.size a ≤ S1x1x16x49x512.size a
  inb_S1x1x16x49x512_S1x1x1x49x512_0_0_14_0_0 : ∀ a, (![0, 0, 14, 0, 0] : Fin 5 → Nat) a + S1x1x1x49x512.size a ≤ S1x1x16x49x512.size a
  inb_S1x1x16x49x512_S1x1x1x49x512_0_0_15_0_0 : ∀ a, (![0, 0, 15, 0, 0] : Fin 5 → Nat) a + S1x1x1x49x512.size a ≤ S1x1x16x49x512.size a
  hrank0 : 0 < grid0.rank
  k0_off1_inb : ∀ i : grid0.Coords, ∀ a, (k0_off1 i) a + S1x1x1.size a ≤ S4x64x16.size a
  k0_off3_inb : ∀ i : grid0.Coords, ∀ a, (k0_off3 i) a + S1x1x1.size a ≤ S4x64x16.size a
  k0_off5_inb : ∀ i : grid0.Coords, ∀ a, (k0_off5 i) a + S1x1x1.size a ≤ S4x64x16.size a
  k0_off7_inb : ∀ i : grid0.Coords, ∀ a, (k0_off7 i) a + S1x1x1.size a ≤ S4x64x16.size a
  k0_off9_inb : ∀ i : grid0.Coords, ∀ a, (k0_off9 i) a + S1x1x1.size a ≤ S4x64x16.size a
  k0_off11_inb : ∀ i : grid0.Coords, ∀ a, (k0_off11 i) a + S1x1x1.size a ≤ S4x64x16.size a
  k0_off13_inb : ∀ i : grid0.Coords, ∀ a, (k0_off13 i) a + S1x1x1.size a ≤ S4x64x16.size a
  k0_off15_inb : ∀ i : grid0.Coords, ∀ a, (k0_off15 i) a + S1x1x1.size a ≤ S4x64x16.size a
  k0_off17_inb : ∀ i : grid0.Coords, ∀ a, (k0_off17 i) a + S1x1x1.size a ≤ S4x64x16.size a
  k0_off19_inb : ∀ i : grid0.Coords, ∀ a, (k0_off19 i) a + S1x1x1.size a ≤ S4x64x16.size a
  k0_off21_inb : ∀ i : grid0.Coords, ∀ a, (k0_off21 i) a + S1x1x1.size a ≤ S4x64x16.size a
  k0_off23_inb : ∀ i : grid0.Coords, ∀ a, (k0_off23 i) a + S1x1x1.size a ≤ S4x64x16.size a
  k0_off25_inb : ∀ i : grid0.Coords, ∀ a, (k0_off25 i) a + S1x1x1.size a ≤ S4x64x16.size a
  k0_off27_inb : ∀ i : grid0.Coords, ∀ a, (k0_off27 i) a + S1x1x1.size a ≤ S4x64x16.size a
  k0_off29_inb : ∀ i : grid0.Coords, ∀ a, (k0_off29 i) a + S1x1x1.size a ≤ S4x64x16.size a
  k0_off31_inb : ∀ i : grid0.Coords, ∀ a, (k0_off31 i) a + S1x1x1.size a ≤ S4x64x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x49x512.size a ≤ S4x64x49x512.size a
  hwx0_0 : ∀ i : grid0.Coords, EltTy.bits .f32 = 32 ∨ (Rect.block (s := S4x64x49x512) S1x64x49x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x16x49x512.size a ≤ S4x64x16x49x512.size a
  hwx0_1 : ∀ i : grid0.Coords, EltTy.bits .f32 = 32 ∨ (Rect.block (s := S4x64x16x49x512) S1x1x16x49x512.size (cc0_transform_1 i) (hinb0_1 i)).WholeWords (EltTy.packing .f32)

variable [Facts₀]

abbrev spec0_0 : Pipeline.WinSpec sig grid0.rank :=
  Pipeline.WinSpec.ofSpec (Memref.whole main_arg1) S1x64x49x512.size reads0_0 false false 2 stage0_0 sem0_0 nbuf0_0 hstage0_0

abbrev spec0_1 : Pipeline.WinSpec sig grid0.rank :=
  Pipeline.WinSpec.ofSpec (Memref.whole main_v0) S1x1x16x49x512.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S4x64x16 : Shape := ⟨3, ![4, 64, 16]⟩
abbrev S4x64x49x512 : Shape := ⟨4, ![4, 64, 49, 512]⟩
abbrev S4 : Shape := ⟨1, ![4]⟩
abbrev S4x1x1 : Shape := ⟨3, ![4, 1, 1]⟩
abbrev S_ : Shape := ⟨0, ![]⟩
abbrev S4x64x16x1 : Shape := ⟨4, ![4, 64, 16, 1]⟩
abbrev S4x64x16x2 : Shape := ⟨4, ![4, 64, 16, 2]⟩
abbrev S4x64x16x49x512 : Shape := ⟨5, ![4, 64, 16, 49, 512]⟩

abbrev nBuf : Space → Nat
  | .hbm => 23
  | .vmem => 0
  | .smem => 0
  | _ => 0

abbrev bufTy : (tb : Table) → Fin (tcTables nBuf tb) → BufTy
  | .hbm, ⟨0, _⟩ => ⟨S4x64x16, .i32⟩
  | .hbm, ⟨1, _⟩ => ⟨S4x64x49x512, .f32⟩
  | .hbm, ⟨2, _⟩ => ⟨S4, .i32⟩
  | .hbm, ⟨3, _⟩ => ⟨S4x1x1, .i32⟩
  | .hbm, ⟨4, _⟩ => ⟨S_, .i32⟩
  | .hbm, ⟨5, _⟩ => ⟨S4x1x1, .i32⟩
  | .hbm, ⟨6, _⟩ => ⟨S4x1x1, .i1⟩
  | .hbm, ⟨7, _⟩ => ⟨S_, .i32⟩
  | .hbm, ⟨8, _⟩ => ⟨S4x1x1, .i32⟩
  | .hbm, ⟨9, _⟩ => ⟨S4x1x1, .i32⟩
  | .hbm, ⟨10, _⟩ => ⟨S4x1x1, .i32⟩
  | .hbm, ⟨11, _⟩ => ⟨S_, .i32⟩
  | .hbm, ⟨12, _⟩ => ⟨S4x64x16, .i32⟩
  | .hbm, ⟨13, _⟩ => ⟨S4x64x16, .i1⟩
  | .hbm, ⟨14, _⟩ => ⟨S_, .i32⟩
  | .hbm, ⟨15, _⟩ => ⟨S4x64x16, .i32⟩
  | .hbm, ⟨16, _⟩ => ⟨S4x64x16, .i32⟩
  | .hbm, ⟨17, _⟩ => ⟨S4x64x16, .i32⟩
  | .hbm, ⟨18, _⟩ => ⟨S4x64x16, .i32⟩
  | .hbm, ⟨19, _⟩ => ⟨S4x64x16x1, .i32⟩
  | .hbm, ⟨20, _⟩ => ⟨S4x64x16x1, .i32⟩
  | .hbm, ⟨21, _⟩ => ⟨S4x64x16x2, .i32⟩
  | .hbm, ⟨22, _⟩ => ⟨S4x64x16x49x512, .f32⟩
  | _, _ => ⟨S4x64x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S_S4x64x16 : S_.BroadcastsInDim S4x64x16 (![] : Fin 0 → Fin S4x64x16.rank)
  bcast_S4x1x1_S4x64x16_0_1_2 : S4x1x1.BroadcastsInDim S4x64x16 (![0, 1, 2] : Fin 3 → Fin S4x64x16.rank)
  bcast_S4x64x16_S4x64x16x1_0_1_2 : S4x64x16.BroadcastsInDim S4x64x16x1 (![0, 1, 2] : Fin 3 → Fin S4x64x16x1.rank)
  concatenates_S4x64x16x1_S4x64x16x1_S4x64x16x2_d3 : Shape.Concatenates [S4x64x16x1, S4x64x16x1] S4x64x16x2 3
  gather_S4x64x49x512_S4x64x16x2_S4x64x16x49x512_34_01_n_n_01_3_1149512_wf : GatherDims.WF S4x64x49x512 S4x64x16x2 S4x64x16x49x512 [3, 4] [0, 1] [] [0, 1] [] 3 ![1, 1, 49, 512]

variable [Facts₀]

def gather_S4x64x49x512_S4x64x16x2_S4x64x16x49x512_34_01_n_n_01_3_1149512 : GatherDims S4x64x49x512 S4x64x16x2 S4x64x16x49x512 where
  offsetDims := [3, 4]
  collapsedSliceDims := [0, 1]
  operandBatchingDims := []
  startIndicesBatchingDims := []
  startIndexMap := [0, 1]
  indexVectorDim := 3
  sliceSizes := ![1, 1, 49, 512]
  wf := gather_S4x64x49x512_S4x64x16x2_S4x64x16x49x512_34_01_n_n_01_3_1149512_wf

class Facts : Prop extends Facts₀ where

variable [Facts]
-- ==== Proof.PageSpec.lean ====
/-
  The function both programs compute, and the arithmetic of its index words.

  `kv` holds, for each of 4 batches, 64 pages of 49 × 512 reals; `r` holds, for each batch `b`, each of 64 query
  positions `p` and each of 16 slots `k`, a 32-bit word naming a page. The result page at `(b, p, k)` is page
  `r[b, p, k]` of batch `b`:   out[b, p, k, w, c] = kv[b, r[b, p, k], w, c].
  No arithmetic is done on the reals: the whole content of the equivalence is which page each side reads.
  A word is read as a page number through `page`: its unsigned value capped at the last page, 63. For a word that is
  nonnegative and below 64 as a SIGNED number, the unsigned value, the signed value and the cap all agree
  (`toNat_lt_of_range`, `toInt_toNat_of_nonneg`, `page_val_of_lt`); that is the only place the index range is used.
-/
import Idealize.ShloMosaic.Lib.ValueIdx
import Idealize.ShloMosaic.Lib.Affine

namespace Cert.PageSpec

open Idealize.ShloMosaic Idealize.ShloMosaic.ValueIdx

/-- The index table [batch, position, slot]. -/
abbrev Tab : Shape := ⟨3, ![4, 64, 16]⟩
/-- The pages [batch, page, row, column]. -/
abbrev Pages : Shape := ⟨4, ![4, 64, 49, 512]⟩
/-- The result [batch, position, slot, row, column]. -/
abbrev Out : Shape := ⟨5, ![4, 64, 16, 49, 512]⟩

/-- A word read as a page number: its unsigned value, capped at the last page. -/
def page (w : BitVec 32) : Fin 64 := ⟨min w.toNat 63, Nat.lt_succ_of_le (Nat.min_le_right _ _)⟩

/-- The result element at explicit coordinates. -/
def gatheredAt {α : Type} (r : Tab.Idx → BitVec 32) (kv : Pages.Idx → α)
    (b : Fin 4) (p : Fin 64) (k : Fin 16) (w : Fin 49) (c : Fin 512) : α :=
  kv (ix4 b (page (r (ix3 b p k))) w c)

/-- THE RESULT: page `r[b, p, k]` of batch `b`, at every `(b, p, k)`. -/
def gathered {α : Type} (r : Tab.Idx → BitVec 32) (kv : Pages.Idx → α) : Out.Idx → α :=
  fun j => gatheredAt r kv (j 0) (j 1) (j 2) (j 3) (j 4)

theorem gathered_ix5 {α : Type} (r : Tab.Idx → BitVec 32) (kv : Pages.Idx → α)
    (b : Fin 4) (p : Fin 64) (k : Fin 16) (w : Fin 49) (c : Fin 512) :
    gathered r kv (ix5 b p k w c) = gatheredAt r kv b p k w c := rfl

/-! ## Words in range -/

theorem toInt_zero32 : (0#32 : BitVec 32).toInt = 0 := by decide
theorem toInt_64 : (64#32 : BitVec 32).toInt = 64 := by decide

/-- A word that is, as a signed number, at least 0 and below 64 is below 64 as an unsigned one. -/
theorem toNat_lt_of_range (w : BitVec 32) (h0 : IntOp.cmpi .sge w 0#32 = 1#1) (h1 : IntOp.cmpi .slt w 64#32 = 1#1) :
    w.toNat < 64 := by
  have a0 := IntOp.cmpi_sge.1 h0
  have a1 := IntOp.cmpi_slt.1 h1
  rw [toInt_zero32] at a0
  rw [toInt_64] at a1
  have hw := w.isLt
  rw [BitVec.toInt_eq_toNat_cond] at a0 a1
  split at a0 <;> omega

/-- A signed-nonnegative word's signed value, as a natural number, is its unsigned value. -/
theorem toInt_toNat_of_nonneg (w : BitVec 32) (h0 : IntOp.cmpi .sge w 0#32 = 1#1) : w.toInt.toNat = w.toNat := by
  have a0 := IntOp.cmpi_sge.1 h0
  rw [toInt_zero32] at a0
  have hw := w.isLt
  rw [BitVec.toInt_eq_toNat_cond] at a0 ⊢
  split at a0
  · next hc => rw [if_pos hc]; exact Int.toNat_natCast _
  · omega

/-- A signed-nonnegative word is not signed-below zero. -/
theorem not_slt_zero_of_nonneg (w : BitVec 32) (h0 : IntOp.cmpi .sge w 0#32 = 1#1) : ¬ IntOp.cmpi .slt w 0#32 = 1#1 := by
  intro h
  have a0 := IntOp.cmpi_sge.1 h0
  have a1 := IntOp.cmpi_slt.1 h
  omega

/-- Below 64 the cap does nothing. -/
theorem page_val_of_lt (w : BitVec 32) (h : w.toNat < 64) : (page w).val = w.toNat := by
  show min w.toNat 63 = w.toNat
  omega

end Cert.PageSpec
-- ==== Proof.PreDecode.lean ====
/-
  The precondition, read back: it is the conjunction of two `all`s — every page entry finite, and every index word
  `w` with `0 ≤ w` and `w < 64` as signed numbers. Only the second is ever used: the programs copy reals and do no
  arithmetic on them, so finiteness plays no part. An `all` is a reduction by `and` from 1 to a single cell; that it
  is 1 says every reduced element is 1, and an element of the reduced mask is the `and` of the two comparisons of
  one word against the constants 0 and 64.
-/
import proofs.«417930_j23785528885338_1_alg».proof.Pre_finite_inputs
import proofs.«417930_j23785528885338_1_alg».proof.Proof.PageSpec
import Idealize.ShloMosaic.Lib.ReduceAll

namespace Cert.PreDecode

open Idealize.ShloMosaic Cert.Pre_finite_inputs

variable {F : FTy → Type} [FloatOps F] [Cert.Pre_finite_inputs.Facts]

/-- The scalar shape has one index. -/
instance : Subsingleton S_.Idx := ⟨fun a b => funext fun d => d.elim0⟩

/-- Under the precondition every index word is, as a signed number, at least 0 and below 64. -/
theorem signed_range (r : IVec S4x64x16 32) (kv : FVec F S4x64x49x512 .f32)
    (h : fn (F := F) r kv = fun _ => 1#1) (i : S4x64x16.Idx) :
    IntOp.cmpi .sge (r i) 0#32 = 1#1 ∧ IntOp.cmpi .slt (r i) 64#32 = 1#1 := by
  have e := congrFun h ValueIdx.ix0
  dsimp only [fn] at e
  obtain ⟨-, e2⟩ := IntOp.andi_eq_one.1 e
  have e3 := Host.reduce_andi_all _ _ _ _ _ e2 i
  exact IntOp.andi_eq_one.1 e3

/-- So every index word is below 64 as an unsigned number: it names a page. -/
theorem toNat_lt (r : IVec S4x64x16 32) (kv : FVec F S4x64x49x512 .f32)
    (h : fn (F := F) r kv = fun _ => 1#1) (i : S4x64x16.Idx) : (r i).toNat < 64 :=
  Cert.PageSpec.toNat_lt_of_range _ (signed_range r kv h i).1 (signed_range r kv h i).2

end Cert.PreDecode
-- ==== Proof.KernelTable.lean ====
/-
  The index words as the kernel body meets them. At grid point (b, p) the body reads, for each slot k = 0 … 15, the
  word at offset (b, p, k) of the whole index table, and ASSUMES of it that page `word` lies inside the 64-page block
  it is about to load from. A word below 64 (unsigned) passes that check: the load's rectangle starts at page `word`
  and is one page tall. Under the index-range hypothesis every word of the table is such, so all sixteen assumed
  checks hold at every grid point.
-/
import proofs.«417930_j23785528885338_1_alg».proof.Proof.Gen.Kernel.Frame
import proofs.«417930_j23785528885338_1_alg».proof.Proof.PageSpec

set_option maxRecDepth 16384

noncomputable section

namespace Cert.Kernel.Table

open Cert.Kernel Cert.Kernel.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The table's prefetch side condition is empty here: no window's block index reads the table. -/
theorem ok : Ok m := trivial

/-- A grid coordinate, turned into a 32-bit word and back, is itself. -/
theorem coord_toNat (n : Nat) (h : n < 2 ^ 32) : (Scalar.indexCast (BitVec.ofNat 32 n)).toNat = n := by
  show (BitVec.ofNat 32 n).toNat = n
  rw [BitVec.toNat_ofNat]; exact Nat.mod_eq_of_lt h

/-- A one-word read of the whole table at offset `off = (b, p, k)` reads the table at `(b, p, k)`. -/
theorem word_read (c : Dev nD) (xt : TbBuf0 (F := F) c tbM0_0) (b : Fin 4) (p : Fin 64) (k : Fin 16)
    (off : Fin 3 → Nat) (h0 : off 0 = b.val) (h1 : off 1 = p.val) (h2 : off 2 = k.val)
    (inb : ∀ a, off a + S1x1x1.size a ≤ S4x64x16.size a) (hn : 0 < S1x1x1.numel) :
    tbM0_0.view.readAt (Elt F) (Rect.unit (s := S4x64x16) off S1x1x1.size inb).toLoadRect xt (Shape.Idx.first hn)
      = xt (ix3 b p k) := by
  rw [View.readAt_apply]
  show xt _ = xt _
  congr 1
  funext a
  apply Fin.ext
  match a with
  | ⟨0, _⟩ => show off 0 + 1 * 0 = b.val; omega
  | ⟨1, _⟩ => show off 1 + 1 * 0 = p.val; omega
  | ⟨2, _⟩ => show off 2 + 1 * 0 = k.val; omega

/-- A word below 64 names a page of the 64-page block: the one-page rectangle at page `word` fits. -/
theorem page_fits (w : BitVec 32) (hw : w.toNat < 64) :
    ∀ a, (![0, (Scalar.indexCast w).toNat, 0, 0] : Fin 4 → Nat) a + S1x1x49x512.size a ≤ S1x64x49x512.size a := by
  intro a
  have e : (Scalar.indexCast w).toNat = w.toNat := rfl
  match a with
  | ⟨0, _⟩ => show 0 + 1 ≤ 1; omega
  | ⟨1, _⟩ => show (Scalar.indexCast w).toNat + 1 ≤ 64; omega
  | ⟨2, _⟩ => show 0 + 49 ≤ 49; omega
  | ⟨3, _⟩ => show 0 + 512 ≤ 512; omega

/-- Whatever one-word read of the table the body makes, the word it gets is a word of the table. -/
theorem read_lt (hall : ∀ x, BitVec.toNat (w := 32) (tbl m 0 x) < 64) (r : LoadRect S4x64x16) (x : r.shape.Idx) :
    BitVec.toNat (w := 32) (tbM0_0.view.readAt (Elt F) r (tbl m 0) x) < 64 := hall _

/-- THE ASSUMED CHECKS: with every table word below 64, each of the sixteen holds at every grid point. -/
theorem hyps_of_range (hall : ∀ x, BitVec.toNat (w := 32) (tbl m 0 x) < 64) : Hyps m (ok m) :=
  Hyps.of
    (fun c t => page_fits _ (read_lt m hall _ _)) (fun c t => page_fits _ (read_lt m hall _ _))
    (fun c t => page_fits _ (read_lt m hall _ _)) (fun c t => page_fits _ (read_lt m hall _ _))
    (fun c t => page_fits _ (read_lt m hall _ _)) (fun c t => page_fits _ (read_lt m hall _ _))
    (fun c t => page_fits _ (read_lt m hall _ _)) (fun c t => page_fits _ (read_lt m hall _ _))
    (fun c t => page_fits _ (read_lt m hall _ _)) (fun c t => page_fits _ (read_lt m hall _ _))
    (fun c t => page_fits _ (read_lt m hall _ _)) (fun c t => page_fits _ (read_lt m hall _ _))
    (fun c t => page_fits _ (read_lt m hall _ _)) (fun c t => page_fits _ (read_lt m hall _ _))
    (fun c t => page_fits _ (read_lt m hall _ _)) (fun c t => page_fits _ (read_lt m hall _ _))

end Cert.Kernel.Table

end
-- ==== Proof.KernelIdealTable.lean ====
/-
  The index words as the kernel body meets them. At grid point (b, p) the body reads, for each slot k = 0 … 15, the
  word at offset (b, p, k) of the whole index table, and ASSUMES of it that page `word` lies inside the 64-page block
  it is about to load from. A word below 64 (unsigned) passes that check: the load's rectangle starts at page `word`
  and is one page tall. Under the index-range hypothesis every word of the table is such, so all sixteen assumed
  checks hold at every grid point.
-/
import proofs.«417930_j23785528885338_1_alg».proof.Proof.Gen.KernelIdeal.Frame
import proofs.«417930_j23785528885338_1_alg».proof.Proof.PageSpec

set_option maxRecDepth 16384

noncomputable section

namespace Cert.KernelIdeal.Table

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The table's prefetch side condition is empty here: no window's block index reads the table. -/
theorem ok : Ok m := trivial

/-- A grid coordinate, turned into a 32-bit word and back, is itself. -/
theorem coord_toNat (n : Nat) (h : n < 2 ^ 32) : (Scalar.indexCast (BitVec.ofNat 32 n)).toNat = n := by
  show (BitVec.ofNat 32 n).toNat = n
  rw [BitVec.toNat_ofNat]; exact Nat.mod_eq_of_lt h

/-- A one-word read of the whole table at offset `off = (b, p, k)` reads the table at `(b, p, k)`. -/
theorem word_read (c : Dev nD) (xt : TbBuf0 (F := F) c tbM0_0) (b : Fin 4) (p : Fin 64) (k : Fin 16)
    (off : Fin 3 → Nat) (h0 : off 0 = b.val) (h1 : off 1 = p.val) (h2 : off 2 = k.val)
    (inb : ∀ a, off a + S1x1x1.size a ≤ S4x64x16.size a) (hn : 0 < S1x1x1.numel) :
    tbM0_0.view.readAt (Elt F) (Rect.unit (s := S4x64x16) off S1x1x1.size inb).toLoadRect xt (Shape.Idx.first hn)
      = xt (ix3 b p k) := by
  rw [View.readAt_apply]
  show xt _ = xt _
  congr 1
  funext a
  apply Fin.ext
  match a with
  | ⟨0, _⟩ => show off 0 + 1 * 0 = b.val; omega
  | ⟨1, _⟩ => show off 1 + 1 * 0 = p.val; omega
  | ⟨2, _⟩ => show off 2 + 1 * 0 = k.val; omega

/-- A word below 64 names a page of the 64-page block: the one-page rectangle at page `word` fits. -/
theorem page_fits (w : BitVec 32) (hw : w.toNat < 64) :
    ∀ a, (![0, (Scalar.indexCast w).toNat, 0, 0] : Fin 4 → Nat) a + S1x1x49x512.size a ≤ S1x64x49x512.size a := by
  intro a
  have e : (Scalar.indexCast w).toNat = w.toNat := rfl
  match a with
  | ⟨0, _⟩ => show 0 + 1 ≤ 1; omega
  | ⟨1, _⟩ => show (Scalar.indexCast w).toNat + 1 ≤ 64; omega
  | ⟨2, _⟩ => show 0 + 49 ≤ 49; omega
  | ⟨3, _⟩ => show 0 + 512 ≤ 512; omega

/-- Whatever one-word read of the table the body makes, the word it gets is a word of the table. -/
theorem read_lt (hall : ∀ x, BitVec.toNat (w := 32) (tbl m 0 x) < 64) (r : LoadRect S4x64x16) (x : r.shape.Idx) :
    BitVec.toNat (w := 32) (tbM0_0.view.readAt (Elt F) r (tbl m 0) x) < 64 := hall _

/-- THE ASSUMED CHECKS: with every table word below 64, each of the sixteen holds at every grid point. -/
theorem hyps_of_range (hall : ∀ x, BitVec.toNat (w := 32) (tbl m 0 x) < 64) : Hyps m (ok m) :=
  Hyps.of
    (fun c t => page_fits _ (read_lt m hall _ _)) (fun c t => page_fits _ (read_lt m hall _ _))
    (fun c t => page_fits _ (read_lt m hall _ _)) (fun c t => page_fits _ (read_lt m hall _ _))
    (fun c t => page_fits _ (read_lt m hall _ _)) (fun c t => page_fits _ (read_lt m hall _ _))
    (fun c t => page_fits _ (read_lt m hall _ _)) (fun c t => page_fits _ (read_lt m hall _ _))
    (fun c t => page_fits _ (read_lt m hall _ _)) (fun c t => page_fits _ (read_lt m hall _ _))
    (fun c t => page_fits _ (read_lt m hall _ _)) (fun c t => page_fits _ (read_lt m hall _ _))
    (fun c t => page_fits _ (read_lt m hall _ _)) (fun c t => page_fits _ (read_lt m hall _ _))
    (fun c t => page_fits _ (read_lt m hall _ _)) (fun c t => page_fits _ (read_lt m hall _ _))

end Cert.KernelIdeal.Table

end
-- ==== Proof.KernelIdealPaged.lean ====
/-
  What the idealized kernel leaves in its result array.

  At grid point (b, p) the pipeline hands the body the 64 pages of batch b (a [1, 64, 49, 512] block) and a
  [1, 1, 16, 49, 512] output block. For each slot k the body reads the index word r[b, p, k], loads page `word` of the
  input block, and stores it as page k of the output block; the sixteen stores tile the output block. So the block the
  body leaves is ONE function of the block index: entry (k, w, c) is entry (w, c) of input page r[b, p, k]. Each store's
  payload is that function on the store's own rectangle (the two shape casts between the load and the store only drop
  and re-add unit axes), hence the block is that function wherever the stores cover, which is everywhere.
  Point (b, p) writes its block back to rows (b, p) of the result; the 256 blocks tile the result, so the result array
  ends as  out[b, p, k, w, c] = kv[b, r[b, p, k], w, c].
-/
import proofs.«417930_j23785528885338_1_alg».proof.Proof.KernelIdealTable
import Idealize.ShloMosaic.Lib.Pipeline.Value
import Idealize.ShloMosaic.Lib.Tactic

set_option maxRecDepth 16384

noncomputable section

namespace Cert.KernelIdeal.Paged

open Cert.KernelIdeal Cert.KernelIdeal.Gen Cert.KernelIdeal.Table Cert.PageSpec
open Idealize.ShloMosaic Idealize.ShloMosaic.TcCoe Idealize.ShloMosaic.Tactic Idealize.SL.Sem Idealize.ShloMosaic.ValueIdx
open Idealize.ShloMosaic.Pipeline (Dat)

variable {F : FTy → Type} [FloatOps F]

/-! ## One store's payload -/

/-- Entry (k, w, c) of the output block, from the input block `x0` and the sixteen words of the point. -/
def blockAt (x0 : Vec F S1x64x49x512 .f32) (words : Fin 16 → BitVec 32) (k : Fin 16) (w : Fin 49) (c : Fin 512) : Elt F .f32 :=
  x0 (ix4 (0 : Fin 1) (page (words k)) w c)

/-- THE OUTPUT BLOCK as one function of its index. -/
def blockFn (x0 : Vec F S1x64x49x512 .f32) (words : Fin 16 → BitVec 32) : S1x1x16x49x512.Idx → Elt F .f32 :=
  fun y => blockAt x0 words (y 2) (y 3) (y 4)

/-- A coordinate on a unit axis is 0. -/
theorem unit_val (a : Fin 1) : a.val = 0 := by omega

/-- Dropping the two unit axes of a [1, 1, 49, 512] page and adding three keeps entry (w, c). -/
theorem recast_apply (v : Vec F S1x1x49x512 .f32) (h1 : S1x1x49x512.ShapeCasts S49x512) (h2 : S49x512.ShapeCasts S1x1x1x49x512)
    (a0 a1 a2 : Fin 1) (w : Fin 49) (c : Fin 512) :
    shapeCast S1x1x1x49x512 (shapeCast S49x512 v h1) h2 (ix5 a0 a1 a2 w c) = v (ix4 (0 : Fin 1) (0 : Fin 1) w c) := by
  have e0 := unit_val a0; have e1 := unit_val a1; have e2 := unit_val a2
  refine (shapeCast_apply _ h2 (ix5 a0 a1 a2 w c) (ix2 w c) ?_).trans ?_
  · rw [Shape.rowMajor_val_two, Shape.rowMajor_val_five]
    show w.val * 512 + c.val = (((a0.val * 1 + a1.val) * 1 + a2.val) * 49 + w.val) * 512 + c.val
    rw [e0, e1, e2]; omega
  · refine shapeCast_apply _ h1 (ix2 w c) (ix4 (0 : Fin 1) (0 : Fin 1) w c) ?_
    rw [Shape.rowMajor_val_two, Shape.rowMajor_val_four]
    show (((0 * 1 + 0) * 49 + w.val) * 512 + c.val) = w.val * 512 + c.val
    omega

/-- A one-page load of the input block at page offset `n` reads page `n`. -/
theorem load_page (arg3 : Memref sig .tc .vmem S1x64x49x512 .f32) (harg3 : arg3.IsWhole) (x0 : Vec F S1x64x49x512 .f32)
    (off : Fin 4 → Nat) (n : Fin 64) (ho0 : off 0 = 0) (ho1 : off 1 = n.val) (ho2 : off 2 = 0) (ho3 : off 3 = 0)
    (inb : ∀ a, off a + S1x1x49x512.size a ≤ S1x64x49x512.size a) (a0 a1 : Fin 1) (w : Fin 49) (c : Fin 512) :
    arg3.view.readAt (Elt F) (Rect.unit (s := S1x64x49x512) off S1x1x49x512.size inb).toLoadRect (harg3.unread x0) (ix4 a0 a1 w c)
      = x0 (ix4 (0 : Fin 1) n w c) := by
  have e0 := unit_val a0; have e1 := unit_val a1
  rw [View.readAt_eq_ld, Memref.IsWhole.read_unread]
  show x0 _ = x0 _
  congr 1
  funext a
  apply Fin.ext
  match a with
  | ⟨0, _⟩ => show off 0 + 1 * a0.val = 0; omega
  | ⟨1, _⟩ => show off 1 + 1 * a1.val = n.val; omega
  | ⟨2, _⟩ => show off 2 + 1 * w.val = w.val; omega
  | ⟨3, _⟩ => show off 3 + 1 * c.val = c.val; omega

/-- The store of slot k puts entry (w, c) of its payload at (0, 0, k, w, c) of the output block. -/
theorem emb_slot (k : Fin 16) (soff : Fin 5 → Nat) (hs0 : soff 0 = 0) (hs1 : soff 1 = 0) (hs2 : soff 2 = k.val) (hs3 : soff 3 = 0) (hs4 : soff 4 = 0)
    (sinb : ∀ a, soff a + S1x1x1x49x512.size a ≤ S1x1x16x49x512.size a) (a0 a1 a2 : Fin 1) (w : Fin 49) (c : Fin 512) :
    (Rect.unit (s := S1x1x16x49x512) soff S1x1x1x49x512.size sinb).emb (ix5 a0 a1 a2 w c) = ix5 (0 : Fin 1) (0 : Fin 1) k w c := by
  have e0 := unit_val a0; have e1 := unit_val a1; have e2 := unit_val a2
  funext a
  apply Fin.ext
  match a with
  | ⟨0, _⟩ => show soff 0 + 1 * a0.val = 0; omega
  | ⟨1, _⟩ => show soff 1 + 1 * a1.val = 0; omega
  | ⟨2, _⟩ => show soff 2 + 1 * a2.val = k.val; omega
  | ⟨3, _⟩ => show soff 3 + 1 * w.val = w.val; omega
  | ⟨4, _⟩ => show soff 4 + 1 * c.val = c.val; omega

/-- ONE SLOT'S PIECE: the page loaded at a word that is slot k's word and names a page, recast and stored as page k,
    is the output block's function on the store's rectangle. -/
theorem slot_piece (arg3 : Memref sig .tc .vmem S1x64x49x512 .f32) (harg3 : arg3.IsWhole) (x0 : Vec F S1x64x49x512 .f32)
    (words : Fin 16 → BitVec 32) (k : Fin 16) (wd : BitVec 32) (hwd : wd = words k) (hk : (words k).toNat < 64)
    (off : Fin 4 → Nat) (ho0 : off 0 = 0) (ho1 : off 1 = wd.toNat) (ho2 : off 2 = 0) (ho3 : off 3 = 0)
    (inb : ∀ a, off a + S1x1x49x512.size a ≤ S1x64x49x512.size a)
    (h1 : S1x1x49x512.ShapeCasts S49x512) (h2 : S49x512.ShapeCasts S1x1x1x49x512)
    (soff : Fin 5 → Nat) (hs0 : soff 0 = 0) (hs1 : soff 1 = 0) (hs2 : soff 2 = k.val) (hs3 : soff 3 = 0) (hs4 : soff 4 = 0)
    (sinb : ∀ a, soff a + S1x1x1x49x512.size a ≤ S1x1x16x49x512.size a) (x : S1x1x1x49x512.Idx) :
    shapeCast S1x1x1x49x512 (shapeCast S49x512
        (arg3.view.readAt (Elt F) (Rect.unit (s := S1x64x49x512) off S1x1x49x512.size inb).toLoadRect (harg3.unread x0)) h1) h2 x
      = blockFn x0 words ((Rect.unit (s := S1x1x16x49x512) soff S1x1x1x49x512.size sinb).emb x) := by
  have hlt : wd.toNat < 64 := hwd ▸ hk
  obtain ⟨a0, a1, a2, w, c, rfl⟩ : ∃ (a0 a1 a2 : Fin 1) (w : Fin 49) (c : Fin 512), x = ix5 a0 a1 a2 w c :=
    ⟨x 0, x 1, x 2, x 3, x 4, eq_ix5 x⟩
  rw [recast_apply, load_page arg3 harg3 x0 off ⟨wd.toNat, hlt⟩ ho0 ho1 ho2 ho3 inb, emb_slot k soff hs0 hs1 hs2 hs3 hs4 sinb]
  show _ = x0 (ix4 (0 : Fin 1) (page (words k)) w c)
  congr 2
  apply Fin.ext
  rw [← hwd, page_val_of_lt wd hlt]

/-! ## The words of a point -/

/-- The word the body reads at offset `off` of the whole index table. -/
abbrev rd (c : Dev nD) (xt0 : TbBuf0 (F := F) c tbM0_0) (off : Fin 3 → Nat) (inb : ∀ a, off a + S1x1x1.size a ≤ S4x64x16.size a) : Elt F .i32 :=
  tbM0_0.view.readAt (Elt F) (Rect.unit (s := S4x64x16) off S1x1x1.size inb).toLoadRect xt0 (Shape.Idx.first (numel1_S1x1x1.symm ▸ Nat.one_pos))

/-- At grid coordinates (b, p) the read at the offset the body computes for slot k is the table's word (b, p, k). -/
theorem rd_eq (c : Dev nD) (xt0 : TbBuf0 (F := F) c tbM0_0) (i : grid0.Coords) (b : Fin 4) (p : Fin 64)
    (hb : (i 0).val = b.val) (hp : (i 1).val = p.val) (k : Fin 16) (off : Fin 3 → Nat)
    (h0 : off 0 = (Scalar.indexCast (BitVec.ofNat 32 (i 0).val)).toNat)
    (h1 : off 1 = (Scalar.indexCast (BitVec.ofNat 32 (i 1).val)).toNat) (h2 : off 2 = k.val)
    (inb : ∀ a, off a + S1x1x1.size a ≤ S4x64x16.size a) :
    rd c xt0 off inb = xt0 (ix3 b p k) := by
  have hb4 := b.isLt; have hp64 := p.isLt
  exact word_read c xt0 b p k off (by rw [h0, coord_toNat _ (by omega), hb]) (by rw [h1, coord_toNat _ (by omega), hp]) h2 inb _

/-! ## The output block the body leaves -/

/-- THE OUTPUT BLOCK at grid coordinates (b, p): entry (k, w, c) is entry (w, c) of input page r[b, p, k], for every
    input block `x0` and every table `xt0` whose words name pages. The sixteen stores, last first; each is `slot_piece`
    at its slot and at the word the run read for it. -/
theorem out_block (c : Dev nD) (i : grid0.Coords) (arg3 : Memref sig .tc .vmem S1x64x49x512 .f32) (harg3 : arg3.IsWhole)
    (arg4 : Memref sig .tc .vmem S1x1x16x49x512 .f32) (harg4 : arg4.IsWhole)
    (x0 : Vec F S1x64x49x512 .f32) (xt0 : TbBuf0 (F := F) c tbM0_0)
    (k0_hw1 : k0_chk1 (rd c xt0 (k0_off1 i) (k0_off1_inb i))) (k0_hw2 : k0_chk2 (rd c xt0 (k0_off3 i) (k0_off3_inb i))) (k0_hw3 : k0_chk3 (rd c xt0 (k0_off5 i) (k0_off5_inb i))) (k0_hw4 : k0_chk4 (rd c xt0 (k0_off7 i) (k0_off7_inb i))) (k0_hw5 : k0_chk5 (rd c xt0 (k0_off9 i) (k0_off9_inb i))) (k0_hw6 : k0_chk6 (rd c xt0 (k0_off11 i) (k0_off11_inb i))) (k0_hw7 : k0_chk7 (rd c xt0 (k0_off13 i) (k0_off13_inb i))) (k0_hw8 : k0_chk8 (rd c xt0 (k0_off15 i) (k0_off15_inb i))) (k0_hw9 : k0_chk9 (rd c xt0 (k0_off17 i) (k0_off17_inb i))) (k0_hw10 : k0_chk10 (rd c xt0 (k0_off19 i) (k0_off19_inb i))) (k0_hw11 : k0_chk11 (rd c xt0 (k0_off21 i) (k0_off21_inb i))) (k0_hw12 : k0_chk12 (rd c xt0 (k0_off23 i) (k0_off23_inb i))) (k0_hw13 : k0_chk13 (rd c xt0 (k0_off25 i) (k0_off25_inb i))) (k0_hw14 : k0_chk14 (rd c xt0 (k0_off27 i) (k0_off27_inb i))) (k0_hw15 : k0_chk15 (rd c xt0 (k0_off29 i) (k0_off29_inb i))) (k0_hw16 : k0_chk16 (rd c xt0 (k0_off31 i) (k0_off31_inb i)))
    (b : Fin 4) (p : Fin 64) (hb : (i 0).val = b.val) (hp : (i 1).val = p.val)
    (hlt : ∀ x, BitVec.toNat (w := 32) (xt0 x) < 64) :
    out0_A_1 c i arg3 harg3 arg4 harg4 x0 xt0 k0_hw1 k0_hw2 k0_hw3 k0_hw4 k0_hw5 k0_hw6 k0_hw7 k0_hw8 k0_hw9 k0_hw10 k0_hw11 k0_hw12 k0_hw13 k0_hw14 k0_hw15 k0_hw16
      = blockFn x0 (fun k => xt0 (ix3 b p k)) := by
  unfold out0_A_1
  rw [View.read_writes_eq_canon _ _ _ (cover0_A_1 c i arg3 harg3 arg4 harg4 x0 xt0 k0_hw1 k0_hw2 k0_hw3 k0_hw4 k0_hw5 k0_hw6 k0_hw7 k0_hw8 k0_hw9 k0_hw10 k0_hw11 k0_hw12 k0_hw13 k0_hw14 k0_hw15 k0_hw16)]
  funext y
  refine View.canon_apply_of_pieces (blockFn x0 fun k => xt0 (ix3 b p k)) _ ?_ y
    (cover0_A_1 c i arg3 harg3 arg4 harg4 x0 xt0 k0_hw1 k0_hw2 k0_hw3 k0_hw4 k0_hw5 k0_hw6 k0_hw7 k0_hw8 k0_hw9 k0_hw10 k0_hw11 k0_hw12 k0_hw13 k0_hw14 k0_hw15 k0_hw16 y)
  unfold kernelRun0_A
  dsimp only
  intro q hq x
  simp only [List.mem_cons, List.mem_nil_iff, or_false] at hq
  rcases hq with rfl | rfl | rfl | rfl | rfl | rfl | rfl | rfl | rfl | rfl | rfl | rfl | rfl | rfl | rfl | rfl
  · exact slot_piece arg3 harg3 x0 (fun k => xt0 (ix3 b p k)) 15 (kernelRun0_A.sl.r_17 c i xt0) (rd_eq c xt0 i b p hb hp 15 (k0_off31 i) rfl rfl rfl _) (hlt _)
      (k0_off32 (kernelRun0_A.sl.r_17 c i xt0)) rfl rfl rfl rfl (k0_off32_inb _ k0_hw16) shapeCasts_S1x1x49x512_S49x512 shapeCasts_S49x512_S1x1x1x49x512
      ![0, 0, 15, 0, 0] rfl rfl rfl rfl rfl inb_S1x1x16x49x512_S1x1x1x49x512_0_0_15_0_0 x
  · exact slot_piece arg3 harg3 x0 (fun k => xt0 (ix3 b p k)) 14 (kernelRun0_A.sl.r_16 c i xt0) (rd_eq c xt0 i b p hb hp 14 (k0_off29 i) rfl rfl rfl _) (hlt _)
      (k0_off30 (kernelRun0_A.sl.r_16 c i xt0)) rfl rfl rfl rfl (k0_off30_inb _ k0_hw15) shapeCasts_S1x1x49x512_S49x512 shapeCasts_S49x512_S1x1x1x49x512
      ![0, 0, 14, 0, 0] rfl rfl rfl rfl rfl inb_S1x1x16x49x512_S1x1x1x49x512_0_0_14_0_0 x
  · exact slot_piece arg3 harg3 x0 (fun k => xt0 (ix3 b p k)) 13 (kernelRun0_A.sl.r_15 c i xt0) (rd_eq c xt0 i b p hb hp 13 (k0_off27 i) rfl rfl rfl _) (hlt _)
      (k0_off28 (kernelRun0_A.sl.r_15 c i xt0)) rfl rfl rfl rfl (k0_off28_inb _ k0_hw14) shapeCasts_S1x1x49x512_S49x512 shapeCasts_S49x512_S1x1x1x49x512
      ![0, 0, 13, 0, 0] rfl rfl rfl rfl rfl inb_S1x1x16x49x512_S1x1x1x49x512_0_0_13_0_0 x
  · exact slot_piece arg3 harg3 x0 (fun k => xt0 (ix3 b p k)) 12 (kernelRun0_A.sl.r_14 c i xt0) (rd_eq c xt0 i b p hb hp 12 (k0_off25 i) rfl rfl rfl _) (hlt _)
      (k0_off26 (kernelRun0_A.sl.r_14 c i xt0)) rfl rfl rfl rfl (k0_off26_inb _ k0_hw13) shapeCasts_S1x1x49x512_S49x512 shapeCasts_S49x512_S1x1x1x49x512
      ![0, 0, 12, 0, 0] rfl rfl rfl rfl rfl inb_S1x1x16x49x512_S1x1x1x49x512_0_0_12_0_0 x
  · exact slot_piece arg3 harg3 x0 (fun k => xt0 (ix3 b p k)) 11 (kernelRun0_A.sl.r_13 c i xt0) (rd_eq c xt0 i b p hb hp 11 (k0_off23 i) rfl rfl rfl _) (hlt _)
      (k0_off24 (kernelRun0_A.sl.r_13 c i xt0)) rfl rfl rfl rfl (k0_off24_inb _ k0_hw12) shapeCasts_S1x1x49x512_S49x512 shapeCasts_S49x512_S1x1x1x49x512
      ![0, 0, 11, 0, 0] rfl rfl rfl rfl rfl inb_S1x1x16x49x512_S1x1x1x49x512_0_0_11_0_0 x
  · exact slot_piece arg3 harg3 x0 (fun k => xt0 (ix3 b p k)) 10 (kernelRun0_A.sl.r_12 c i xt0) (rd_eq c xt0 i b p hb hp 10 (k0_off21 i) rfl rfl rfl _) (hlt _)
      (k0_off22 (kernelRun0_A.sl.r_12 c i xt0)) rfl rfl rfl rfl (k0_off22_inb _ k0_hw11) shapeCasts_S1x1x49x512_S49x512 shapeCasts_S49x512_S1x1x1x49x512
      ![0, 0, 10, 0, 0] rfl rfl rfl rfl rfl inb_S1x1x16x49x512_S1x1x1x49x512_0_0_10_0_0 x
  · exact slot_piece arg3 harg3 x0 (fun k => xt0 (ix3 b p k)) 9 (kernelRun0_A.sl.r_11 c i xt0) (rd_eq c xt0 i b p hb hp 9 (k0_off19 i) rfl rfl rfl _) (hlt _)
      (k0_off20 (kernelRun0_A.sl.r_11 c i xt0)) rfl rfl rfl rfl (k0_off20_inb _ k0_hw10) shapeCasts_S1x1x49x512_S49x512 shapeCasts_S49x512_S1x1x1x49x512
      ![0, 0, 9, 0, 0] rfl rfl rfl rfl rfl inb_S1x1x16x49x512_S1x1x1x49x512_0_0_9_0_0 x
  · exact slot_piece arg3 harg3 x0 (fun k => xt0 (ix3 b p k)) 8 (kernelRun0_A.sl.r_10 c i xt0) (rd_eq c xt0 i b p hb hp 8 (k0_off17 i) rfl rfl rfl _) (hlt _)
      (k0_off18 (kernelRun0_A.sl.r_10 c i xt0)) rfl rfl rfl rfl (k0_off18_inb _ k0_hw9) shapeCasts_S1x1x49x512_S49x512 shapeCasts_S49x512_S1x1x1x49x512
      ![0, 0, 8, 0, 0] rfl rfl rfl rfl rfl inb_S1x1x16x49x512_S1x1x1x49x512_0_0_8_0_0 x
  · exact slot_piece arg3 harg3 x0 (fun k => xt0 (ix3 b p k)) 7 (kernelRun0_A.sl.r_9 c i xt0) (rd_eq c xt0 i b p hb hp 7 (k0_off15 i) rfl rfl rfl _) (hlt _)
      (k0_off16 (kernelRun0_A.sl.r_9 c i xt0)) rfl rfl rfl rfl (k0_off16_inb _ k0_hw8) shapeCasts_S1x1x49x512_S49x512 shapeCasts_S49x512_S1x1x1x49x512
      ![0, 0, 7, 0, 0] rfl rfl rfl rfl rfl inb_S1x1x16x49x512_S1x1x1x49x512_0_0_7_0_0 x
  · exact slot_piece arg3 harg3 x0 (fun k => xt0 (ix3 b p k)) 6 (kernelRun0_A.sl.r_8 c i xt0) (rd_eq c xt0 i b p hb hp 6 (k0_off13 i) rfl rfl rfl _) (hlt _)
      (k0_off14 (kernelRun0_A.sl.r_8 c i xt0)) rfl rfl rfl rfl (k0_off14_inb _ k0_hw7) shapeCasts_S1x1x49x512_S49x512 shapeCasts_S49x512_S1x1x1x49x512
      ![0, 0, 6, 0, 0] rfl rfl rfl rfl rfl inb_S1x1x16x49x512_S1x1x1x49x512_0_0_6_0_0 x
  · exact slot_piece arg3 harg3 x0 (fun k => xt0 (ix3 b p k)) 5 (kernelRun0_A.sl.r_6 c i xt0) (rd_eq c xt0 i b p hb hp 5 (k0_off11 i) rfl rfl rfl _) (hlt _)
      (k0_off12 (kernelRun0_A.sl.r_6 c i xt0)) rfl rfl rfl rfl (k0_off12_inb _ k0_hw6) shapeCasts_S1x1x49x512_S49x512 shapeCasts_S49x512_S1x1x1x49x512
      ![0, 0, 5, 0, 0] rfl rfl rfl rfl rfl inb_S1x1x16x49x512_S1x1x1x49x512_0_0_5_0_0 x
  · exact slot_piece arg3 harg3 x0 (fun k => xt0 (ix3 b p k)) 4 (kernelRun0_A.sl.r_5 c i xt0) (rd_eq c xt0 i b p hb hp 4 (k0_off9 i) rfl rfl rfl _) (hlt _)
      (k0_off10 (kernelRun0_A.sl.r_5 c i xt0)) rfl rfl rfl rfl (k0_off10_inb _ k0_hw5) shapeCasts_S1x1x49x512_S49x512 shapeCasts_S49x512_S1x1x1x49x512
      ![0, 0, 4, 0, 0] rfl rfl rfl rfl rfl inb_S1x1x16x49x512_S1x1x1x49x512_0_0_4_0_0 x
  · exact slot_piece arg3 harg3 x0 (fun k => xt0 (ix3 b p k)) 3 (kernelRun0_A.sl.r_4 c i xt0) (rd_eq c xt0 i b p hb hp 3 (k0_off7 i) rfl rfl rfl _) (hlt _)
      (k0_off8 (kernelRun0_A.sl.r_4 c i xt0)) rfl rfl rfl rfl (k0_off8_inb _ k0_hw4) shapeCasts_S1x1x49x512_S49x512 shapeCasts_S49x512_S1x1x1x49x512
      ![0, 0, 3, 0, 0] rfl rfl rfl rfl rfl inb_S1x1x16x49x512_S1x1x1x49x512_0_0_3_0_0 x
  · exact slot_piece arg3 harg3 x0 (fun k => xt0 (ix3 b p k)) 2 (kernelRun0_A.sl.r_2 c i xt0) (rd_eq c xt0 i b p hb hp 2 (k0_off5 i) rfl rfl rfl _) (hlt _)
      (k0_off6 (kernelRun0_A.sl.r_2 c i xt0)) rfl rfl rfl rfl (k0_off6_inb _ k0_hw3) shapeCasts_S1x1x49x512_S49x512 shapeCasts_S49x512_S1x1x1x49x512
      ![0, 0, 2, 0, 0] rfl rfl rfl rfl rfl inb_S1x1x16x49x512_S1x1x1x49x512_0_0_2_0_0 x
  · exact slot_piece arg3 harg3 x0 (fun k => xt0 (ix3 b p k)) 1 (kernelRun0_A.sl.r_1 c i xt0) (rd_eq c xt0 i b p hb hp 1 (k0_off3 i) rfl rfl rfl _) (hlt _)
      (k0_off4 (kernelRun0_A.sl.r_1 c i xt0)) rfl rfl rfl rfl (k0_off4_inb _ k0_hw2) shapeCasts_S1x1x49x512_S49x512 shapeCasts_S49x512_S1x1x1x49x512
      ![0, 0, 1, 0, 0] rfl rfl rfl rfl rfl inb_S1x1x16x49x512_S1x1x1x49x512_0_0_1_0_0 x
  · exact slot_piece arg3 harg3 x0 (fun k => xt0 (ix3 b p k)) 0 (kernelRun0_A.sl.r c i xt0) (rd_eq c xt0 i b p hb hp 0 (k0_off1 i) rfl rfl rfl _) (hlt _)
      (k0_off2 (kernelRun0_A.sl.r c i xt0)) rfl rfl rfl rfl (k0_off2_inb _ k0_hw1) shapeCasts_S1x1x49x512_S49x512 shapeCasts_S49x512_S1x1x1x49x512
      ![0, 0, 0, 0, 0] rfl rfl rfl rfl rfl inb_S1x1x16x49x512_S1x1x1x49x512_0_0_0_0_0 x

/-! ## The arrays, a grid point's coordinates, its blocks -/

variable (m : (ℓ : Loc nD τ sig) → Buf (Elt F) ℓ) (ρ : Dev nD → PrngReg)

/-- The index table and the pages on core c, as launched. -/
abbrev tabOf (c : Dev nD) : S4x64x16.Idx → BitVec 32 := m ((c : Thread nD τ).loc main_arg0)
abbrev kvOf (c : Dev nD) : S4x64x49x512.Idx → Elt F .f32 := m ((c : Thread nD τ).loc main_arg1)

/-- The batch b and the position p of grid point t = 64·b + p. -/
def bOf (t : Fin grid0.N) : Fin 4 := ⟨(grid0.coords t 0).val, (grid0.coords t 0).isLt⟩
def pOf (t : Fin grid0.N) : Fin 64 := ⟨(grid0.coords t 1).val, (grid0.coords t 1).isLt⟩

/-- The input window's block index at coordinates (b, p): batch b, everything else whole. -/
theorem in_index (i : grid0.Coords) (b : Fin 4) (hb : (i 0).val = b.val) : cc0_transform_0 i = ![b.val, 0, 0, 0] := by
  have hb4 := b.isLt
  funext a
  match a with
  | ⟨0, _⟩ => show (Scalar.indexCast (BitVec.ofNat 32 (i 0).val)).toNat = b.val; rw [coord_toNat _ (by omega), hb]
  | ⟨1, _⟩ => rfl
  | ⟨2, _⟩ => rfl
  | ⟨3, _⟩ => rfl

/-- The output window's block index at coordinates (b, p): rows (b, p). -/
theorem out_index (i : grid0.Coords) (b : Fin 4) (p : Fin 64) (hb : (i 0).val = b.val) (hp : (i 1).val = p.val) :
    cc0_transform_1 i = ![b.val, p.val, 0, 0, 0] := by
  have hb4 := b.isLt; have hp64 := p.isLt
  funext a
  match a with
  | ⟨0, _⟩ => show (Scalar.indexCast (BitVec.ofNat 32 (i 0).val)).toNat = b.val; rw [coord_toNat _ (by omega), hb]
  | ⟨1, _⟩ => show (Scalar.indexCast (BitVec.ofNat 32 (i 1).val)).toNat = p.val; rw [coord_toNat _ (by omega), hp]
  | ⟨2, _⟩ => rfl
  | ⟨3, _⟩ => rfl
  | ⟨4, _⟩ => rfl

/-- THE INPUT BLOCK of point t is the 64 pages of batch b. -/
theorem in_block (c : Dev nD) (t : Fin (cfgM m (ok m)).N) (y : S1x64x49x512.Idx) :
    (iblk m (ok m) c 0 t : Vec F S1x64x49x512 .f32) y = kvOf m c (ix4 (bOf t) (y 1) (y 2) (y 3)) := by
  have e0 : (y 0).val = 0 := unit_val (y 0)
  have hidx : cc0_transform_0 (grid0.coords t) = ![(bOf t).val, 0, 0, 0] := in_index (grid0.coords t) (bOf t) rfl
  show V m c main_arg1 ((((cfgM m (ok m)).win 0).blk t).view.emb y) = V m c main_arg1 (ix4 (bOf t) (y 1) (y 2) (y 3))
  congr 1
  funext a
  apply Fin.ext
  match a with
  | ⟨0, _⟩ =>
    show cc0_transform_0 (grid0.coords t) (0 : Fin 4) * 1 + 1 * (y 0).val = (bOf t).val
    rw [hidx]; show (bOf t).val * 1 + 1 * (y 0).val = (bOf t).val; omega
  | ⟨1, _⟩ =>
    show cc0_transform_0 (grid0.coords t) (1 : Fin 4) * 64 + 1 * (y 1).val = (y 1).val
    rw [hidx]; show 0 * 64 + 1 * (y 1).val = (y 1).val; omega
  | ⟨2, _⟩ =>
    show cc0_transform_0 (grid0.coords t) (2 : Fin 4) * 49 + 1 * (y 2).val = (y 2).val
    rw [hidx]; show 0 * 49 + 1 * (y 2).val = (y 2).val; omega
  | ⟨3, _⟩ =>
    show cc0_transform_0 (grid0.coords t) (3 : Fin 4) * 512 + 1 * (y 3).val = (y 3).val
    rw [hidx]; show 0 * 512 + 1 * (y 3).val = (y 3).val; omega

/-- An index of point t's output block sits at rows (b, p) of the result. -/
theorem out_emb (t : Fin (cfgM m (ok m)).N) (y : S1x1x16x49x512.Idx) :
    (((cfgM m (ok m)).win 1).blk t).view.emb y = ix5 (bOf t) (pOf t) (y 2) (y 3) (y 4) := by
  have e0 : (y 0).val = 0 := unit_val (y 0)
  have e1 : (y 1).val = 0 := unit_val (y 1)
  have hidx : cc0_transform_1 (grid0.coords t) = ![(bOf t).val, (pOf t).val, 0, 0, 0] := out_index (grid0.coords t) (bOf t) (pOf t) rfl rfl
  funext a
  apply Fin.ext
  match a with
  | ⟨0, _⟩ =>
    show cc0_transform_1 (grid0.coords t) (0 : Fin 5) * 1 + 1 * (y 0).val = (bOf t).val
    rw [hidx]; show (bOf t).val * 1 + 1 * (y 0).val = (bOf t).val; omega
  | ⟨1, _⟩ =>
    show cc0_transform_1 (grid0.coords t) (1 : Fin 5) * 1 + 1 * (y 1).val = (pOf t).val
    rw [hidx]; show (pOf t).val * 1 + 1 * (y 1).val = (pOf t).val; omega
  | ⟨2, _⟩ =>
    show cc0_transform_1 (grid0.coords t) (2 : Fin 5) * 16 + 1 * (y 2).val = (y 2).val
    rw [hidx]; show 0 * 16 + 1 * (y 2).val = (y 2).val; omega
  | ⟨3, _⟩ =>
    show cc0_transform_1 (grid0.coords t) (3 : Fin 5) * 49 + 1 * (y 3).val = (y 3).val
    rw [hidx]; show 0 * 49 + 1 * (y 3).val = (y 3).val; omega
  | ⟨4, _⟩ =>
    show cc0_transform_1 (grid0.coords t) (4 : Fin 5) * 512 + 1 * (y 4).val = (y 4).val
    rw [hidx]; show 0 * 512 + 1 * (y 4).val = (y 4).val; omega

/-- The output block's function, over an input block that is batch b's pages and the words of rows (b, p), is the
    paged gather at rows (b, p). -/
theorem block_is_gathered (x0 : Vec F S1x64x49x512 .f32) (tab : S4x64x16.Idx → BitVec 32) (kv : S4x64x49x512.Idx → Elt F .f32)
    (b : Fin 4) (p : Fin 64) (hx0 : ∀ y : S1x64x49x512.Idx, x0 y = kv (ix4 b (y 1) (y 2) (y 3)))
    (k : Fin 16) (w : Fin 49) (cc : Fin 512) :
    blockAt x0 (fun k => tab (ix3 b p k)) k w cc = gathered tab kv (ix5 b p k w cc) := by
  unfold blockAt
  rw [hx0, gathered_ix5]
  rfl

/-! ## What each point writes back, and the result array -/

/-- Every word of the table, as the region finds it, names a page. -/
abbrev InRange : Prop := ∀ x, BitVec.toNat (w := 32) (tbl m 0 x) < 64

/-- WHAT POINT t WRITES BACK is block t of the paged gather of the launch arrays. -/
theorem flushed_eq (hall : InRange m) (c : Dev nD) (t : Fin (cfgM m (ok m)).N) :
    (dats m (ok m) (hyps_of_range m hall) 0 c).flushed 1 t
      = (((cfgM m (ok m)).win 1).blk t).view.read (Elt F) (gathered (tabOf m c) (kvOf m c)) := by
  show ((cfgM m (ok m)).win 1).cut (grid0.coords t) ((dats m (ok m) (hyps_of_range m hall) 0 c).after 1 t) = _
  rw [after0_1]
  have hblk := out_block c (grid0.coords t) (ms0_0 m (ok m) t) (hs0_0 m (ok m) t) (ms0_1 m (ok m) t) (hs0_1 m (ok m) t)
    (iblk m (ok m) c 0 t) (tbl m 0)
    (Hyps.c0 (hyps_of_range m hall) c t) (Hyps.c1 (hyps_of_range m hall) c t) (Hyps.c2 (hyps_of_range m hall) c t) (Hyps.c3 (hyps_of_range m hall) c t)
    (Hyps.c4 (hyps_of_range m hall) c t) (Hyps.c5 (hyps_of_range m hall) c t) (Hyps.c6 (hyps_of_range m hall) c t) (Hyps.c7 (hyps_of_range m hall) c t)
    (Hyps.c8 (hyps_of_range m hall) c t) (Hyps.c9 (hyps_of_range m hall) c t) (Hyps.c10 (hyps_of_range m hall) c t) (Hyps.c11 (hyps_of_range m hall) c t)
    (Hyps.c12 (hyps_of_range m hall) c t) (Hyps.c13 (hyps_of_range m hall) c t) (Hyps.c14 (hyps_of_range m hall) c t) (Hyps.c15 (hyps_of_range m hall) c t)
    (bOf t) (pOf t) rfl rfl hall
  refine funext fun (y : S1x1x16x49x512.Idx) => ?_
  obtain rfl : c = 0 := Subsingleton.elim _ _
  show outsAt0 m (ok m) (hyps_of_range m hall) 0 t y = gathered (tabOf m 0) (kvOf m 0) ((((cfgM m (ok m)).win 1).blk t).view.emb y)
  rw [out_emb m t y]
  refine (congrFun hblk y).trans ?_
  exact block_is_gathered (iblk m (ok m) 0 0 t) (tabOf m 0) (kvOf m 0) (bOf t) (pOf t) (in_block m 0 t) (y 2) (y 3) (y 4)

/-- Every (b, p) is the coordinates of a grid point: t = 64·b + p. -/
theorem point_of (b : Fin 4) (p : Fin 64) : ∃ t : Fin grid0.N, bOf t = b ∧ pOf t = p := by
  have hb4 := b.isLt; have hp64 := p.isLt
  refine ⟨⟨b.val * 64 + p.val, by rw [N_0]; omega⟩, Fin.ext ?_, Fin.ext ?_⟩
  · show (b.val * 64 + p.val) / grid0.stride 0 % grid0.bound 0 = b.val
    rw [show grid0.stride 0 = 64 from by decide, show grid0.bound 0 = 4 from rfl]; omega
  · show (b.val * 64 + p.val) / grid0.stride 1 % grid0.bound 1 = p.val
    rw [show grid0.stride 1 = 1 from by decide, show grid0.bound 1 = 64 from rfl]; omega

/-- The 256 output blocks cover the result: index (b, p, k, w, c) is in the block of the point with coordinates (b, p). -/
theorem cover (i : S4x64x16x49x512.Idx) :
    ∃ t : Fin (cfgM m (ok m)).N, ((cfgM m (ok m)).win 1).flush t = true ∧ i ∈ (((cfgM m (ok m)).win 1).blk t).view.set := by
  obtain ⟨b, p, k, w, cc, rfl⟩ : ∃ (b : Fin 4) (p : Fin 64) (k : Fin 16) (w : Fin 49) (cc : Fin 512), i = ix5 b p k w cc :=
    ⟨i 0, i 1, i 2, i 3, i 4, eq_ix5 i⟩
  obtain ⟨t, hb, hp⟩ := point_of b p
  refine ⟨t, flush0_1 (adm m (ok m)) t, ?_⟩
  have h := (((cfgM m (ok m)).win 1).blk t).view.emb_mem_set (ix5 (0 : Fin 1) (0 : Fin 1) k w cc)
  rw [out_emb m t, hb, hp] at h
  exact h

/-- THE RESULT ARRAY after the run is the paged gather of the launch arrays. -/
theorem final (hall : InRange m) (c : Dev nD) :
    (dats m (ok m) (hyps_of_range m hall) 0 c).arrAt 1 (cfgM m (ok m)).N = gathered (tabOf m c) (kvOf m c) :=
  (dats m (ok m) (hyps_of_range m hall) 0 c).arrAt_eq_of_cover 1 (gathered (tabOf m c) (kvOf m c))
    (fun t _ => flushed_eq m hall c t) (cover m)

/-- THE KERNEL'S RUN with its result named: every weakly fair execution ends with the result array at the paged gather
    of the arguments and the arguments unchanged. -/
theorem run (hall : InRange m) :
    θ_run defs (onTc (τ := τ) (main (F := F))) ⟨m, fun _ => 0, ρ⟩ fun r => ∀ c : Dev nD,
      r.2.mem ((c.tc : Thread nD τ).loc main_v0) = gathered (tabOf m c) (kvOf m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 1).trans (final m hall c),
      ((h c).2 main_arg0 (by decide : main_arg0 ∈ Pipeline.restRefs sig spec0)).trans (V_main_arg0 m c),
      ((h c).1 0).trans (((dats m (ok m) (hyps_of_range m hall) 0 c).arrAt_in 0 rfl _).trans
        ((A_eq m (ok m) (hyps_of_range m hall) c 0).trans (V_main_arg1 m c)))⟩)
    (run_main m ρ (ok m) (hyps_of_range m hall))

end Cert.KernelIdeal.Paged

end
-- ==== Proof.ReferencePaged.lean ====
/-
  What the idealized reference computes.

  The reference builds, for every (b, p, k), a two-entry start index — the batch number b (an iota, wrapped if
  negative, which it never is) and the page word r[b, p, k] (wrapped by +64 if negative) — and gathers the
  [1, 1, 49, 512] slice of `kv` at that start, each start component clamped so that the slice fits. So result entry
  (b, p, k, w, c) is `kv` at (clamp b, clamp word, w, c). For b < 4 the clamp of b is b. For a word that is nonnegative
  and below 64 as a signed number the wrap is not taken, the signed value is the unsigned one and the clamp leaves it:
  the reference reads page r[b, p, k] of batch b, the same page the kernel copies.
-/
import proofs.«417930_j23785528885338_1_alg».proof.Proof.Gen.ReferenceIdeal.Read
import proofs.«417930_j23785528885338_1_alg».proof.Proof.PageSpec
import Idealize.ShloMosaic.Lib.ValueIdx
import Idealize.ShloMosaic.Lib.Pipeline.Value

set_option maxRecDepth 16384

noncomputable section

namespace Cert.ReferenceIdeal.Paged

open Cert.ReferenceIdeal Cert.ReferenceIdeal.Gen Cert.ReferenceIdeal.Read Cert.PageSpec
open Idealize.ShloMosaic Idealize.ShloMosaic.ValueIdx

variable {F : FTy → Type} [FloatOps F]

/-- The gather's dimension numbers: operand axes 0 and 1 collapsed and start-indexed, axes 2 and 3 whole (offset axes
    3 and 4 of the result), the index vector on axis 3 of the start indices. -/
abbrev gd : GatherDims S4x64x49x512 S4x64x16x2 S4x64x16x49x512 :=
  gather_S4x64x49x512_S4x64x16x2_S4x64x16x49x512_34_01_n_n_01_3_1149512

/-- The start-indices index at which result index (b, p, k, ·, ·) reads component `q` of its start index. -/
theorem start_at (b : Fin 4) (p : Fin 64) (k : Fin 16) (w : Fin 49) (c : Fin 512) (q : Fin 2) (hq : q.val < gd.startIndexMap.length) :
    gd.siIdx (ix5 b p k w c) ⟨q.val, hq⟩ = ix4 b p k q := by
  funext a
  refine Fin.ext ?_
  match a with
  | ⟨0, _⟩ => rfl
  | ⟨1, _⟩ => rfl
  | ⟨2, _⟩ => rfl
  | ⟨3, _⟩ => rfl

/-- No operand axis is a batching axis. -/
theorem no_batching (a : Fin 4) : a ∉ gd.operandBatchingDims := List.not_mem_nil

/-- Operand axis 0 (the batch): collapsed and start-indexed by component 0, clamped to the last batch. -/
theorem operand_batch (idx : IVec S4x64x16x2 32) (b : Fin 4) (p : Fin 64) (k : Fin 16) (w : Fin 49) (c : Fin 512) :
    gd.start (ix5 b p k w c) idx (0 : Fin 4) + gd.batchCoord (ix5 b p k w c) (0 : Fin 4) + gd.offCoord (ix5 b p k w c) (0 : Fin 4)
      = min (idx (ix4 b p k (0 : Fin 2))).toInt.toNat 3 := by
  rw [GatherDims.batchCoord_eq_zero _ _ _ (no_batching _), GatherDims.offCoord_eq_zero _ _ _ (by decide)]
  simp only [Nat.add_zero]
  unfold GatherDims.start
  rw [dif_pos (by decide)]
  show min (idx (gd.siIdx (ix5 b p k w c) ⟨(0 : Fin 2).val, by decide⟩)).toInt.toNat 3 = _
  rw [start_at]

/-- Operand axis 1 (the page): collapsed and start-indexed by component 1, clamped to the last page. -/
theorem operand_page (idx : IVec S4x64x16x2 32) (b : Fin 4) (p : Fin 64) (k : Fin 16) (w : Fin 49) (c : Fin 512) :
    gd.start (ix5 b p k w c) idx (1 : Fin 4) + gd.batchCoord (ix5 b p k w c) (1 : Fin 4) + gd.offCoord (ix5 b p k w c) (1 : Fin 4)
      = min (idx (ix4 b p k (1 : Fin 2))).toInt.toNat 63 := by
  rw [GatherDims.batchCoord_eq_zero _ _ _ (no_batching _), GatherDims.offCoord_eq_zero _ _ _ (by decide)]
  simp only [Nat.add_zero]
  unfold GatherDims.start
  rw [dif_pos (by decide)]
  show min (idx (gd.siIdx (ix5 b p k w c) ⟨(1 : Fin 2).val, by decide⟩)).toInt.toNat 63 = _
  rw [start_at]

/-- Operand axis 2 (the row): not start-indexed; the result's offset coordinate on axis 3. -/
theorem operand_row (idx : IVec S4x64x16x2 32) (b : Fin 4) (p : Fin 64) (k : Fin 16) (w : Fin 49) (c : Fin 512) :
    gd.start (ix5 b p k w c) idx (2 : Fin 4) + gd.batchCoord (ix5 b p k w c) (2 : Fin 4) + gd.offCoord (ix5 b p k w c) (2 : Fin 4) = w.val := by
  rw [GatherDims.batchCoord_eq_zero _ _ _ (no_batching _)]
  simp only [Nat.add_zero]
  unfold GatherDims.start GatherDims.offCoord
  rw [dif_neg (by decide), dif_pos (by decide)]
  show 0 + w.val = w.val
  omega

/-- Operand axis 3 (the column): not start-indexed; the result's offset coordinate on axis 4. -/
theorem operand_col (idx : IVec S4x64x16x2 32) (b : Fin 4) (p : Fin 64) (k : Fin 16) (w : Fin 49) (c : Fin 512) :
    gd.start (ix5 b p k w c) idx (3 : Fin 4) + gd.batchCoord (ix5 b p k w c) (3 : Fin 4) + gd.offCoord (ix5 b p k w c) (3 : Fin 4) = c.val := by
  rw [GatherDims.batchCoord_eq_zero _ _ _ (no_batching _)]
  simp only [Nat.add_zero]
  unfold GatherDims.start GatherDims.offCoord
  rw [dif_neg (by decide), dif_pos (by decide)]
  show 0 + c.val = c.val
  omega

/-- THE GATHER AT (b, p, k, w, c): `kv` at the two start components, read signed and clamped to the last batch and the
    last page, and at (w, c) inside the slice. -/
theorem gather_at {α : Type} (x : S4x64x49x512.Idx → α) (idx : IVec S4x64x16x2 32)
    (b : Fin 4) (p : Fin 64) (k : Fin 16) (w : Fin 49) (c : Fin 512) :
    Host.gather gd x idx (ix5 b p k w c)
      = x (ix4 (⟨min (idx (ix4 b p k (0 : Fin 2))).toInt.toNat 3, Nat.lt_succ_of_le (Nat.min_le_right _ _)⟩ : Fin 4)
            (⟨min (idx (ix4 b p k (1 : Fin 2))).toInt.toNat 63, Nat.lt_succ_of_le (Nat.min_le_right _ _)⟩ : Fin 64) w c) := by
  unfold Host.gather
  congr 1
  funext a
  refine Fin.ext ?_
  match a with
  | ⟨0, _⟩ => exact operand_batch idx b p k w c
  | ⟨1, _⟩ => exact operand_page idx b p k w c
  | ⟨2, _⟩ => exact operand_row idx b p k w c
  | ⟨3, _⟩ => exact operand_col idx b p k w c

/-- Column 0 of the start indices at (b, p, k) is the batch number as a word. -/
theorem start_batch (x0 : IVec S4x64x16 32) (b : Fin 4) (p : Fin 64) (k : Fin 16) :
    val_main_v15 (F := F) x0 (ix4 b p k (0 : Fin 2)) = BitVec.ofNat 32 b.val := by
  unfold val_main_v15
  refine (concatenate_pair_apply_left (t := S4x64x16x2) (s₁ := S4x64x16x1) (s₂ := S4x64x16x1) (3 : Fin 4) (val_main_v13 (F := F)) (val_main_v14 (F := F) x0)
    concatenates_S4x64x16x1_S4x64x16x1_S4x64x16x2_d3 (ix4 b p k (0 : Fin 2)) rfl
    (ix4 b p k (0 : Fin 1)) (fun a => by match a with | ⟨0, _⟩ => rfl | ⟨1, _⟩ => rfl | ⟨2, _⟩ => rfl | ⟨3, _⟩ => rfl)).trans ?_
  rw [val_main_v13_apply, val_main_v12_apply, val_main_v6_apply, val_main_v3_apply, val_main_v5_apply, val_main_v1_apply,
    val_main_v2_apply, val_main_v4_apply, val_main_v0_apply, val_main_c_apply, val_main_c_0_apply]
  exact (by decide : ∀ b : Fin 4, Scalar.select (IntOp.cmpi .slt (BitVec.ofNat 32 b.val) 0#32)
    (IntOp.addi (BitVec.ofNat 32 b.val) 4#32) (BitVec.ofNat 32 b.val) = BitVec.ofNat 32 b.val) b

/-- Column 1 of the start indices at (b, p, k) is the page word r[b, p, k], when that word is nonnegative. -/
theorem start_page (x0 : IVec S4x64x16 32) (b : Fin 4) (p : Fin 64) (k : Fin 16)
    (h0 : IntOp.cmpi .sge (x0 (ix3 b p k)) 0#32 = 1#1) :
    val_main_v15 (F := F) x0 (ix4 b p k (1 : Fin 2)) = x0 (ix3 b p k) := by
  unfold val_main_v15
  refine (concatenate_pair_apply_right (t := S4x64x16x2) (s₁ := S4x64x16x1) (s₂ := S4x64x16x1) (3 : Fin 4) (val_main_v13 (F := F)) (val_main_v14 (F := F) x0)
    concatenates_S4x64x16x1_S4x64x16x1_S4x64x16x2_d3 (ix4 b p k (1 : Fin 2)) rfl rfl
    (ix4 b p k (0 : Fin 1)) (fun a ha => by match a with | ⟨0, _⟩ => rfl | ⟨1, _⟩ => rfl | ⟨2, _⟩ => rfl | ⟨3, _⟩ => exact absurd rfl ha) rfl).trans ?_
  rw [val_main_v14_apply, val_main_v11_apply, val_main_v8_apply, val_main_v7_apply, val_main_c_1_apply]
  have e : idx_main_v14 (ix4 b p k (0 : Fin 1)) = ix3 b p k := funext fun a => by
    match a with | ⟨0, _⟩ => rfl | ⟨1, _⟩ => rfl | ⟨2, _⟩ => rfl
  rw [e]
  exact if_neg (not_slt_zero_of_nonneg _ h0)

/-- A batch number below 4, as a word read signed and clamped to 3, is itself. -/
theorem batch_clamp : ∀ b : Fin 4, min (BitVec.ofNat 32 b.val).toInt.toNat 3 = b.val := by decide

/-- THE REFERENCE'S RESULT is the paged gather, when every index word is in [0, 64) as a signed number. -/
theorem result_eq (x0 : IVec S4x64x16 32) (x1 : FVec F S4x64x49x512 .f32)
    (hr : ∀ i, IntOp.cmpi .sge (x0 i) 0#32 = 1#1 ∧ IntOp.cmpi .slt (x0 i) 64#32 = 1#1) :
    val_main_v16 (F := F) x0 x1 = gathered x0 x1 := by
  funext j
  obtain ⟨b, p, k, w, c, rfl⟩ : ∃ (b : Fin 4) (p : Fin 64) (k : Fin 16) (w : Fin 49) (c : Fin 512), j = ix5 b p k w c :=
    ⟨j 0, j 1, j 2, j 3, j 4, eq_ix5 j⟩
  unfold val_main_v16
  rw [gather_at, gathered_ix5]
  unfold gatheredAt
  have hb : (⟨min (val_main_v15 (F := F) x0 (ix4 b p k (0 : Fin 2))).toInt.toNat 3, Nat.lt_succ_of_le (Nat.min_le_right _ _)⟩ : Fin 4) = b :=
    Fin.ext (by show min _ 3 = b.val; rw [start_batch]; exact batch_clamp b)
  have hp : (⟨min (val_main_v15 (F := F) x0 (ix4 b p k (1 : Fin 2))).toInt.toNat 63, Nat.lt_succ_of_le (Nat.min_le_right _ _)⟩ : Fin 64)
      = page (x0 (ix3 b p k)) :=
    Fin.ext (by
      show min _ 63 = min _ 63
      rw [start_page x0 b p k (hr _).1, toInt_toNat_of_nonneg _ (hr _).1])
  rw [hb, hp]

end Cert.ReferenceIdeal.Paged

end
-- ==== Proof.lean ====
/-
  A paged gather, proved equal to its reference over the extended reals.

  `kv` holds 4 batches of 64 pages of 49 × 512 numbers; `r_idx` holds, for each batch b, position p and slot k, the
  number of a page. Both programs compute  out[b, p, k, w, c] = kv[b, r_idx[b, p, k], w, c]:
  the kernel, at grid point (b, p), by copying sixteen pages of batch b's block one slot at a time, each page chosen by
  a word it reads from the index table; the reference by one gather whose start index is (b, r_idx[b, p, k]).
  No arithmetic touches the numbers, so nothing depends on their being finite; what the claim needs is that every index
  word is a page number, 0 ≤ r_idx < 64 (part of the precondition): outside that range the kernel's page load is out
  of its block (the body's assumed check fails), and the reference wraps or clamps the word instead.
  The pieces: the precondition read back (PreDecode); the kernel's assumed checks from the range (KernelTable,
  KernelIdealTable); the array the idealized kernel leaves (KernelIdealPaged); the reference's result (ReferencePaged);
  both are the one function `PageSpec.gathered` of the arguments.
-/
import proofs.«417930_j23785528885338_1_alg».proof.Defs
import proofs.«417930_j23785528885338_1_alg».proof.Proof.Gen.Kernel
import proofs.«417930_j23785528885338_1_alg».proof.Proof.Gen.Kernel.Skeleton
import proofs.«417930_j23785528885338_1_alg».proof.Proof.Gen.Kernel.Launch
import proofs.«417930_j23785528885338_1_alg».proof.Proof.Gen.Kernel.Points
import proofs.«417930_j23785528885338_1_alg».proof.Proof.Gen.Kernel.Frame
import proofs.«417930_j23785528885338_1_alg».proof.Proof.Gen.KernelIdeal
import proofs.«417930_j23785528885338_1_alg».proof.Proof.Gen.KernelIdeal.Skeleton
import proofs.«417930_j23785528885338_1_alg».proof.Proof.Gen.KernelIdeal.Launch
import proofs.«417930_j23785528885338_1_alg».proof.Proof.Gen.KernelIdeal.Points
import proofs.«417930_j23785528885338_1_alg».proof.Proof.Gen.KernelIdeal.Frame
import proofs.«417930_j23785528885338_1_alg».proof.Proof.Gen.ReferenceIdeal
import proofs.«417930_j23785528885338_1_alg».proof.Proof.Gen.Pre_finite_inputs
import proofs.«417930_j23785528885338_1_alg».proof.Proof.Gen.ReferenceIdeal.Run
import proofs.«417930_j23785528885338_1_alg».proof.Proof.Gen.ReferenceIdeal.Read
import proofs.«417930_j23785528885338_1_alg».proof.Proof.PageSpec
import proofs.«417930_j23785528885338_1_alg».proof.Proof.PreDecode
import proofs.«417930_j23785528885338_1_alg».proof.Proof.KernelTable
import proofs.«417930_j23785528885338_1_alg».proof.Proof.KernelIdealTable
import proofs.«417930_j23785528885338_1_alg».proof.Proof.KernelIdealPaged
import proofs.«417930_j23785528885338_1_alg».proof.Proof.ReferencePaged
import Idealize.ShloMosaic.Adequacy
import Idealize.ShloMosaic.Init

noncomputable section

namespace Cert.Proof

open Idealize.ShloMosaic Idealize.SL.Sem

/-- Under the precondition every word of the index table, as the word-level kernel's region finds it, names a page. -/
theorem range_Kernel (m : (ℓ : Loc Cert.Kernel.nD Cert.Kernel.τ Cert.Kernel.sig) → Buf (Elt Bits) ℓ) (h : Cert.Pre_Kernel m) :
    ∀ x, BitVec.toNat (w := 32) (Cert.Kernel.Gen.tbl m 0 x) < 64 :=
  fun x => Cert.PreDecode.toNat_lt (F := Bits) _ _ (h 0) x

/-- The same of the idealized kernel's. -/
theorem range_KernelIdeal (m : (ℓ : Loc Cert.KernelIdeal.nD Cert.KernelIdeal.τ Cert.KernelIdeal.sig) → Buf (Elt Ideal) ℓ)
    (h : Cert.Pre_KernelIdeal m) : Cert.KernelIdeal.Paged.InRange m :=
  fun x => Cert.PreDecode.toNat_lt (F := Ideal) _ _ (h 0) x

/-- The word-level kernel runs and keeps its arguments: the generated frame, its assumed checks from the index range. -/
theorem frame_k : Cert.frame_Kernel := fun m ρ h =>
  Cert.Kernel.Gen.frame m ρ (Cert.Kernel.Table.ok m) (Cert.Kernel.Table.hyps_of_range m (range_Kernel m h))

/-- So does the idealized kernel. -/
theorem frame_ki : Cert.frame_KernelIdeal := fun m ρ h =>
  Cert.KernelIdeal.Gen.frame m ρ (Cert.KernelIdeal.Table.ok m) (Cert.KernelIdeal.Table.hyps_of_range m (range_KernelIdeal m h))

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the paged gather of the arguments: the kernel's run (`KernelIdeal.Paged.run`), and
    the reference's run read back (`ReferenceIdeal.Paged.result_eq`) at arguments that agree. -/
theorem algebraic : Cert.algebraic_KernelIdeal_ReferenceIdeal := by
  intro m ρ m' ρ' hpre hagree
  refine ⟨fun c => Cert.PageSpec.gathered
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Paged.run (F := Ideal) m ρ (range_KernelIdeal m hpre), ?_⟩
  refine (θ_run Cert.ReferenceIdeal.defs _ _).mono (fun _ h c => ⟨?_, (h c).2.1, (h c).2.2⟩)
    (Cert.ReferenceIdeal.Value.run (F := Ideal) m' ρ')
  rw [(h c).1, Cert.ReferenceIdeal.Read.val_main_v16_eq, (hagree c).1, (hagree c).2]
  exact Cert.ReferenceIdeal.Paged.result_eq _ _ (fun i => Cert.PreDecode.signed_range (F := Ideal) _ _ (hpre c) i)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
